-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x1024 : Shape := ⟨2, ![8192, 1024]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel

variable [Facts]

def fn {F : FTy → Type} [FloatOps F] (main_arg0 : FVec F S8x8192 .f32) (main_arg1 : IVec S8192x1024 32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  main_v3
-- ==== Kernel.lean ====
abbrev S8x8192 : Shape := ⟨2, ![8, 8192]⟩
abbrev S8192x1024 : Shape := ⟨2, ![8192, 1024]⟩
abbrev S8x4x256x8 : Shape := ⟨4, ![8, 4, 256, 8]⟩
abbrev S8x4x8x256 : Shape := ⟨4, ![8, 4, 8, 256]⟩
abbrev S2048x256 : Shape := ⟨2, ![2048, 256]⟩
abbrev S8x2048 : Shape := ⟨2, ![8, 2048]⟩
abbrev S2048x2048 : Shape := ⟨2, ![2048, 2048]⟩
abbrev S_ : Shape := ⟨0, ![]⟩
abbrev S8 : Shape := ⟨1, ![8]⟩
abbrev S8x1 : Shape := ⟨2, ![8, 1]⟩

abbrev nBuf : Space → Nat
  | .hbm => 15
  | .vmem => 6
  | .smem => 0
  | _ => 0

abbrev bufTy : (tb : Table) → Fin (tcTables nBuf tb) → BufTy
  | .hbm, ⟨0, _⟩ => ⟨S8x8192, .f32⟩
  | .hbm, ⟨1, _⟩ => ⟨S8192x1024, .i32⟩
  | .hbm, ⟨2, _⟩ => ⟨S8x4x256x8, .f32⟩
  | .hbm, ⟨3, _⟩ => ⟨S8x4x8x256, .f32⟩
  | .hbm, ⟨4, _⟩ => ⟨S8x8192, .f32⟩
  | .hbm, ⟨5, _⟩ => ⟨S8x8192, .bf16⟩
  | .hbm, ⟨6, _⟩ => ⟨S8x8192, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S8x8192, .f32⟩
  | .hbm, ⟨14, _⟩ => ⟨S8x8192, .f32⟩
  | .local _ .vmem, ⟨0, _⟩ => ⟨S8x8192, .bf16⟩
  | .local _ .vmem, ⟨1, _⟩ => ⟨S2048x256, .i32⟩
  | .local _ .vmem, ⟨2, _⟩ => ⟨S2048x256, .i32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v45 : BitVec 32 := Scalar.muli arg1 c2048_i32
  v45
def k0_off1 (i : grid0.Coords) : Fin 2 → Nat :=
  let c0_10 : Index := 0#32
  let arg1 : BitVec 32 := BitVec.ofNat 32 (i 1).val
  let c2048_i32 : BitVec 32 := 2048#32
  let v45 : BitVec 32 := Scalar.muli arg1 c2048_i32
  let v46 : BitVec 32 := v45
  let v47 : Index := Scalar.indexCast v46
  ![0, v47.toNat]
def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_15 : BitVec 32 := 0#32
  let v58 : BitVec 1 := Scalar.cmpi .ne v57 c0_i32_15
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x8192_S8x4x256x8 : S8x8192.ShapeCasts S8x4x256x8
  transposes_S8x4x256x8_S8x4x8x256_0_1_3_2 : S8x4x256x8.Transposes [0, 1, 3, 2] S8x4x8x256
  shapeCasts_S8x4x8x256_S8x8192 : S8x4x8x256.ShapeCasts S8x8192
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x256_S2048x256_0_0 : ∀ a, (![0, 0] : Fin 2 → Nat) a + S2048x256.size a ≤ S2048x256.size a
  h_S2048x256 : 0 < S2048x256.numel
  concatenates_S2048x256_S2048x256_S2048x256_S2048x256_S2048x256_S2048x256_S2048x256_S2048x256_S2048x2048_d1 : Shape.Concatenates [S2048x256, S2048x256, S2048x256, S2048x256, S2048x256, S2048x256, S2048x256, S2048x256] S2048x2048 1
  reducesTo_S8x8192_S8_d1 : S8x8192.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  dot_S8x2048_S2048x2048_S8x2048_1_1_0_0_n_n_wf : DotDims.WF S8x2048 S2048x2048 S8x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S8x2048.size a ≤ S8x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .bf16 = 32 ∨ (Rect.block (s := S8x8192) S8x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x1024.size a
  hwx0_1 : ∀ i : grid0.Coords, EltTy.bits .i32 = 32 ∨ (Rect.block (s := S8192x1024) S2048x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x8192.size a
  hwx0_2 : ∀ i : grid0.Coords, EltTy.bits .f32 = 32 ∨ (Rect.block (s := S8x8192) S8x2048.size (cc0_transform_2 i) (hinb0_2 i)).WholeWords (EltTy.packing .f32)

variable [Facts₀]

def dot_S8x2048_S2048x2048_S8x2048_1_1_0_0_n_n : DotDims S8x2048 S2048x2048 S8x2048 where
  lhsContracting := [1]
  rhsContracting := [1]
  lhsNonContracting := [0]
  rhsNonContracting := [0]
  lhsBatch := []
  rhsBatch := []
  wf := dot_S8x2048_S2048x2048_S8x2048_1_1_0_0_n_n_wf

abbrev win0_0 : Pipeline.Window sig grid0 :=
  Pipeline.Window.ofSpec (Memref.whole main_v3) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x8192 : Shape := ⟨2, ![8, 8192]⟩
abbrev S8192x1024 : Shape := ⟨2, ![8192, 1024]⟩
abbrev S8 : Shape := ⟨1, ![8]⟩
abbrev S_ : Shape := ⟨0, ![]⟩
abbrev S8192x1024x1 : Shape := ⟨3, ![8192, 1024, 1]⟩
abbrev S1x1x8 : Shape := ⟨3, ![1, 1, 8]⟩
abbrev S8192x1024x8 : Shape := ⟨3, ![8192, 1024, 8]⟩
abbrev S8x1 : Shape := ⟨2, ![8, 1]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x1024, .i32⟩
  | .hbm, ⟨2, _⟩ => ⟨S8, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8192x1024x1, .i32⟩
  | .hbm, ⟨8, _⟩ => ⟨S1x1x8, .i32⟩
  | .hbm, ⟨9, _⟩ => ⟨S8192x1024x8, .i32⟩
  | .hbm, ⟨10, _⟩ => ⟨S8192x1024x8, .i32⟩
  | .hbm, ⟨11, _⟩ => ⟨S8192x1024x8, .i32⟩
  | .hbm, ⟨12, _⟩ => ⟨S_, .i32⟩
  | .hbm, ⟨13, _⟩ => ⟨S8192x1024x8, .i32⟩
  | .hbm, ⟨14, _⟩ => ⟨S8192x1024x8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8192x1024x8, .i32⟩
  | .hbm, ⟨24, _⟩ => ⟨S8192x8192, .i32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8192x1024_S8192x1024x1_0_1 : S8192x1024.BroadcastsInDim S8192x1024x1 (![0, 1] : Fin 2 → Fin S8192x1024x1.rank)
  bcast_S8_S1x1x8_2 : S8.BroadcastsInDim S1x1x8 (![2] : Fin 1 → Fin S1x1x8.rank)
  bcast_S8192x1024x1_S8192x1024x8_0_1_2 : S8192x1024x1.BroadcastsInDim S8192x1024x8 (![0, 1, 2] : Fin 3 → Fin S8192x1024x8.rank)
  bcast_S1x1x8_S8192x1024x8_0_1_2 : S1x1x8.BroadcastsInDim S8192x1024x8 (![0, 1, 2] : Fin 3 → Fin S8192x1024x8.rank)
  bcast_S_S8192x1024x8 : S_.BroadcastsInDim S8192x1024x8 (![] : Fin 0 → Fin S8192x1024x8.rank)
  bcast_S8_S8x1_0 : S8.BroadcastsInDim S8x1 (![0] : Fin 1 → Fin S8x1.rank)
  shapeCasts_S8192x1024x8_S8192x8192 : S8192x1024x8.ShapeCasts S8192x8192
  bcast_S_S8192x8192 : S_.BroadcastsInDim S8192x8192 (![] : Fin 0 → Fin S8192x8192.rank)
  transposes_S8192x8192_S8192x8192_1_0 : S8192x8192.Transposes [1, 0] S8192x8192
  gather_S8192x1024x8_S8x1_S8192x1024x8_01_2_n_n_2_1_819210241_wf : GatherDims.WF S8192x1024x8 S8x1 S8192x1024x8 [0, 1] [2] [] [2] [] 1 ![8192, 1024, 1]
  dot_S8x8192_S8192x8192_S8x8192_1_0_0_1_n_n_wf : DotDims.WF S8x8192 S8192x8192 S8x8192 [1] [0] [0] [1] [] []

variable [Facts₀]

def gather_S8192x1024x8_S8x1_S8192x1024x8_01_2_n_n_2_1_819210241 : GatherDims S8192x1024x8 S8x1 S8192x1024x8 where
  offsetDims := [0, 1]
  collapsedSliceDims := [2]
  operandBatchingDims := []
  startIndicesBatchingDims := []
  startIndexMap := [2]
  indexVectorDim := 1
  sliceSizes := ![8192, 1024, 1]
  wf := gather_S8192x1024x8_S8x1_S8192x1024x8_01_2_n_n_2_1_819210241_wf
def dot_S8x8192_S8192x8192_S8x8192_1_0_0_1_n_n : DotDims S8x8192 S8192x8192 S8x8192 where
  lhsContracting := [1]
  rhsContracting := [0]
  lhsNonContracting := [0]
  rhsNonContracting := [1]
  lhsBatch := []
  rhsBatch := []
  wf := dot_S8x8192_S8192x8192_S8x8192_1_0_0_1_n_n_wf

class Facts : Prop extends Facts₀ where

variable [Facts]
-- ==== Proof.KerStep.lean ====
/-
  One grid point of the kernel as a function of what it reads.

  At a grid point the body loads the whole block of packed words, cuts the eight codes out of every word, lays the eight
  code blocks side by side, multiplies the slice of the resident activations that belongs to the point's column block by
  the transpose of that matrix, and adds the product to the accumulator. At the first column block the accumulator is
  first set to zero; at the last one the accumulator is also copied into the output block. This module states that as one
  function `step` of the blocks and the accumulator, for each of the three kinds of point.
-/
import proofs.«430961_j40080634806820_3_alg».proof.Proof.Gen.KernelIdeal.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

theorem hz : (![0, 0] : Fin 2 → Nat) = fun _ => 0 := funext fun a => by fin_cases a <;> rfl

/-- The columns of the resident activations that the point's column block uses: 2048 columns from 2048 times the
    point's second coordinate on. -/
def xslice (i : grid0.Coords) (x0 : Vec F S8x8192 .bf16) : Vec F S8x2048 .bf16 :=
  View.ld x0 (Rect.unit (k0_off1 i) S8x2048.size (k0_off1_inb i))

/-- What the body leaves in the accumulator: the accumulator plus the product of the activations' slice with the
    transposed matrix of codes of the block of words. -/
def step (i : grid0.Coords) (x0 : Vec F S8x8192 .bf16) (x1 : Vec F S2048x256 .i32) (acc : Vec F S8x2048 .f32) :
    Vec F S8x2048 .f32 :=
  k0_pay1 x1 (k0_pay3 x1) (k0_pay4 x1) (k0_pay5 x1) (k0_pay6 x1) (k0_pay7 x1) (k0_pay8 x1) (k0_pay9 x1) (xslice i x0) acc

/-- The zero block the accumulator is reset to. -/
abbrev zeroAcc : Vec F S8x2048 .f32 := k0_pay2 (F := F)

/-- At a first column block the accumulator ends at one step from zero. -/
theorem sout_A (c : Dev nD) (i : grid0.Coords) (arg2 : Memref sig .tc .vmem S8x8192 .bf16) (harg2 : arg2.IsWhole) (arg3 : Memref sig .tc .vmem S2048x256 .i32) (harg3 : arg3.IsWhole) (arg4 : Memref sig .tc .vmem S8x2048 .f32) (harg4 : arg4.IsWhole) (arg5 : Memref sig .tc .vmem S8x2048 .f32) (harg5 : arg5.IsWhole) (hc0 : cond0_0 i) (hc1 : ¬cond0_1 i)
    (x0 : Vec F S8x8192 .bf16) (x1 : Vec F S2048x256 .i32) :
    sout0_A_0 c i arg2 harg2 arg3 harg3 arg4 harg4 arg5 harg5 hc0 hc1 x0 x1 = step i x0 x1 zeroAcc := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x2048) hz]
  simp only [View.readAt_eq_ld, harg3.read_unread, harg2.read_unread, View.ld_unit_zero (S := S2048x256) hz,
    View.readCov_unit_zero (S := S8x2048) _ hz]
  rfl

/-- At a middle column block the accumulator ends at one step from what it held. -/
theorem sout_B (c : Dev nD) (i : grid0.Coords) (arg2 : Memref sig .tc .vmem S8x8192 .bf16) (harg2 : arg2.IsWhole) (arg3 : Memref sig .tc .vmem S2048x256 .i32) (harg3 : arg3.IsWhole) (arg4 : Memref sig .tc .vmem S8x2048 .f32) (harg4 : arg4.IsWhole) (arg5 : Memref sig .tc .vmem S8x2048 .f32) (harg5 : arg5.IsWhole) (hc0 : ¬cond0_0 i) (hc1 : ¬cond0_1 i)
    (x0 : Vec F S8x8192 .bf16) (x1 : Vec F S2048x256 .i32) (xs0 : Vec F S8x2048 .f32) :
    sout0_B_0 c i arg2 harg2 arg3 harg3 arg4 harg4 arg5 harg5 hc0 hc1 x0 x1 xs0 = step i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S8x2048) hz]
  simp only [View.readAt_eq_ld, harg3.read_unread, harg2.read_unread, harg5.read_unread, View.ld_unit_zero (S := S2048x256) hz,
    View.ld_unit_zero (S := S8x2048) hz]
  rfl

/-- At a last column block the accumulator ends at one step from what it held, -/
theorem sout_C (c : Dev nD) (i : grid0.Coords) (arg2 : Memref sig .tc .vmem S8x8192 .bf16) (harg2 : arg2.IsWhole) (arg3 : Memref sig .tc .vmem S2048x256 .i32) (harg3 : arg3.IsWhole) (arg4 : Memref sig .tc .vmem S8x2048 .f32) (harg4 : arg4.IsWhole) (arg5 : Memref sig .tc .vmem S8x2048 .f32) (harg5 : arg5.IsWhole) (hc0 : ¬cond0_0 i) (hc1 : cond0_1 i)
    (x0 : Vec F S8x8192 .bf16) (x1 : Vec F S2048x256 .i32) (xs0 : Vec F S8x2048 .f32) :
    sout0_C_0 c i arg2 harg2 arg3 harg3 arg4 harg4 arg5 harg5 hc0 hc1 x0 x1 xs0 = step i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x2048) hz]
  simp only [View.readAt_eq_ld, harg3.read_unread, harg2.read_unread, harg5.read_unread, View.ld_unit_zero (S := S2048x256) hz,
    View.ld_unit_zero (S := S8x2048) hz]
  rfl

/-- and the output block holds the same. -/
theorem out_C (c : Dev nD) (i : grid0.Coords) (arg2 : Memref sig .tc .vmem S8x8192 .bf16) (harg2 : arg2.IsWhole) (arg3 : Memref sig .tc .vmem S2048x256 .i32) (harg3 : arg3.IsWhole) (arg4 : Memref sig .tc .vmem S8x2048 .f32) (harg4 : arg4.IsWhole) (arg5 : Memref sig .tc .vmem S8x2048 .f32) (harg5 : arg5.IsWhole) (hc0 : ¬cond0_0 i) (hc1 : cond0_1 i)
    (x0 : Vec F S8x8192 .bf16) (x1 : Vec F S2048x256 .i32) (xs0 : Vec F S8x2048 .f32) :
    out0_C_2 c i arg2 harg2 arg3 harg3 arg4 harg4 arg5 harg5 hc0 hc1 x0 x1 xs0 = step i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x2048) hz]
  simp only [View.readAt_eq_ld, harg3.read_unread, harg2.read_unread, harg5.read_unread, View.ld_unit_zero (S := S2048x256) hz,
    View.ld_unit_zero (S := S8x2048) hz, View.readCov_unit_zero (S := S8x2048) _ hz]
  rfl

end Cert.KernelIdeal.Hand

end
-- ==== Proof.KerChain.lean ====
/-
  The accumulator over the grid.

  The grid runs over four row blocks of the table (the first coordinate) and, inside each, over four column blocks (the
  second coordinate, the fastest): point number n works on row block n / 4 and column block n % 4. The accumulator is
  reset at every first column block, so after point n it holds the steps of the column blocks 0 … n % 4 of the current
  row block, taken in order from zero. At a last column block the output block holds the same.
-/
import proofs.«430961_j40080634806820_3_alg».proof.Proof.KerStep

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The accumulator after point n: one step from zero at a first column block, one step from the point before
    elsewhere. -/
def accAfter (c : Dev nD) : (n : ℕ) → n < cfg0.N → Vec F S8x2048 .f32
  | 0, h => step (grid0.coords ⟨0, h⟩) (iblk m c 0 ⟨0, h⟩) (iblk m c 1 ⟨0, h⟩) zeroAcc
  | n + 1, h =>
    if (n + 1) % 4 = 0 then step (grid0.coords ⟨n + 1, h⟩) (iblk m c 0 ⟨n + 1, h⟩) (iblk m c 1 ⟨n + 1, h⟩) zeroAcc
    else step (grid0.coords ⟨n + 1, h⟩) (iblk m c 0 ⟨n + 1, h⟩) (iblk m c 1 ⟨n + 1, h⟩) (accAfter c n (Nat.lt_of_succ_lt h))

theorem accAfter_first (c : Dev nD) (t : Fin cfg0.N) (h0 : t.val % 4 = 0) :
    accAfter m c t.val t.isLt = step (grid0.coords t) (iblk m c 0 t) (iblk m c 1 t) zeroAcc := by
  obtain ⟨n, hn⟩ := t
  cases n with
  | zero => rfl
  | succ n => exact if_pos h0

theorem accAfter_next (c : Dev nD) (t : Fin cfg0.N) (h0 : ¬t.val % 4 = 0) :
    accAfter m c t.val t.isLt
      = step (grid0.coords t) (iblk m c 0 t) (iblk m c 1 t)
          (accAfter m c (t.val - 1) (Nat.lt_of_le_of_lt (Nat.sub_le _ _) t.isLt)) := by
  obtain ⟨n, hn⟩ := t
  cases n with
  | zero => exact absurd (Nat.zero_mod _) h0
  | succ n => exact if_neg h0

/-- What the scratch accumulator holds after point n is `accAfter`: by induction on the point, the three kinds of
    point each by its own step. -/
theorem scratch_eq (c : Dev nD) : ∀ (n : ℕ) (h : n < cfg0.N), (outsAt0 m c n h).2 = accAfter m c n h
  | 0, h => by
    rw [outsAt0_A m c ⟨0, h⟩ rfl (by dsimp only; omega)]
    dsimp only
    exact sout_A ..
  | n + 1, h => by
    have hN : cfg0.N = 16 := N_0
    by_cases h0 : (n + 1) % 4 = 0
    · have h1 : ¬(n + 1) % 4 = 3 := by omega
      rw [outsAt0_A m c ⟨n + 1, h⟩ h0 h1, accAfter_first m c ⟨n + 1, h⟩ h0]
      dsimp only
      exact sout_A ..
    · by_cases h1 : (n + 1) % 4 = 3
      · rw [outsAt0_C m c ⟨n + 1, h⟩ h0 h1, accAfter_next m c ⟨n + 1, h⟩ h0]
        dsimp only
        rw [sout_C]
        exact congrArg _ (scratch_eq c n _)
      · rw [outsAt0_B m c ⟨n + 1, h⟩ h0 h1, accAfter_next m c ⟨n + 1, h⟩ h0]
        dsimp only
        rw [sout_B]
        exact congrArg _ (scratch_eq c n _)

/-- At a last column block the output block holds the accumulator. -/
theorem out_eq (c : Dev nD) (t : Fin cfg0.N) (h1 : t.val % 4 = 3) :
    (outsAt0 m c t.val t.isLt).1 = accAfter m c t.val t.isLt := by
  have h0 : ¬t.val % 4 = 0 := by omega
  rw [outsAt0_C m c t h0 h1, accAfter_next m c t h0]
  dsimp only
  rw [out_C]
  exact congrArg _ (scratch_eq m c _ _)

end Cert.KernelIdeal.Hand

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.Spec.lean ====
/-
  What both programs compute, stated once.

  The second argument packs eight 4-bit codes into each 32-bit word of an [8192, 1024] table. Code number p of word j of
  row n — the weight of column 8 j + p — sits in nibble 0, 4, 1, 5, 2, 6, 3, 7 of the word for p = 0 … 7, so it is the
  word shifted right (arithmetically) by 0, 16, 4, 20, 8, 24, 12, 28 bits and masked with 15: a number in 0 … 15 whatever
  the word's sign, since the mask drops the sign extension. Both programs multiply the [8, 8192] first argument by the
  transpose of the [8192, 8192] matrix of codes, each code lowered by 7.5.

  The reference lowers every code first and then contracts. The kernel contracts the raw codes, with the columns of both
  factors taken in another order inside each block of 2048 columns (first all columns ≡ 0 mod 8, then those ≡ 1, …), and
  afterwards subtracts 7.5 times the row sum of the first argument.
-/
import Idealize.ShloMosaic.PureOps.Ideal
import Idealize.ShloMosaic.Lib.ValueIdx

noncomputable section

open scoped BigOperators

namespace Cert.Hand

open Idealize.ShloMosaic Idealize.ShloMosaic.ValueIdx

/-- The shape of the first argument and of the result. -/
abbrev SX : Shape := ⟨2, ![8, 8192]⟩
/-- The shape of the packed table. -/
abbrev SQ : Shape := ⟨2, ![8192, 1024]⟩

/-- How far the word is shifted to bring code number p down to its lowest four bits. -/
def shiftOf : Fin 8 → BitVec 32 := ![0#32, 16#32, 4#32, 20#32, 8#32, 24#32, 12#32, 28#32]

/-- A code cut out of a word: shift right arithmetically, keep the lowest four bits. -/
def nibble (q s : BitVec 32) : BitVec 32 := IntOp.andi (IntOp.shrsi .vector q s) 15#32

/-- The word of row n that holds column k's code. -/
def wordOf (Q : IVec SQ 32) (n : Fin 8192) (k : Fin 8192) : BitVec 32 :=
  Q (ix2 n (⟨k.val / 8, by have := k.isLt; omega⟩ : Fin 1024))

/-- The raw code (0 … 15) of row n, column k, as an extended real. -/
def codeAt (Q : IVec SQ 32) (n : Fin 8192) (k : Fin 8192) : EReal :=
  (((nibble (wordOf Q n k) (shiftOf (⟨k.val % 8, Nat.mod_lt _ (by decide)⟩ : Fin 8))).toInt : ℝ) : EReal)

/-- The offset 7.5 the codes are lowered by, as the float literal both programs carry. -/
def offset : EReal := Ideal.ofBits .f32 0x40F00000#32

/-- The order in which the kernel meets the columns: position r of block r / 2048 is column
    8 · (r mod 256) + (r mod 2048) / 256 of that block. -/
def colPerm (r : Fin 8192) : Fin 8192 :=
  ⟨(r.val / 2048) * 2048 + ((r.val % 2048) % 256) * 8 + (r.val % 2048) / 256, by have := r.isLt; omega⟩

/-- The reference's entry (b, n): the contraction over the columns of the lowered codes. -/
def refAt (x : FVec Ideal SX .f32) (Q : IVec SQ 32) (b : Fin 8) (n : Fin 8192) : EReal :=
  ∑ k : Fin 8192, x (ix2 b k) * (codeAt Q n k - offset)

/-- The kernel's entry (b, n): the contraction of the raw codes in the kernel's column order, less 7.5 times the row sum. -/
def kerAt (x : FVec Ideal SX .f32) (Q : IVec SQ 32) (b : Fin 8) (n : Fin 8192) : EReal :=
  (∑ r : Fin 8192, x (ix2 b (colPerm r)) * codeAt Q n (colPerm r)) - offset * ∑ k : Fin 8192, x (ix2 b k)

/-- The reference's result array. -/
def refVal (x : FVec Ideal SX .f32) (Q : IVec SQ 32) : FVec Ideal SX .f32 := fun i => refAt x Q (i 0) (i 1)

/-- The kernel's result array. -/
def kerVal (x : FVec Ideal SX .f32) (Q : IVec SQ 32) : FVec Ideal SX .f32 := fun i => kerAt x Q (i 0) (i 1)

end Cert.Hand

end
-- ==== Proof.KerStepIdeal.lean ====
/-
  One grid point's step at an entry, over the extended reals.

  The eight code blocks the body cuts out of the block of words lie side by side: column mm of the 2048 × 2048 matrix is
  column mm % 256 of block number mm / 256, and block number p holds, at every place, the code for column offset p of the
  word at that place. The matrix unit's product of the activations' slice with the transpose of that matrix, accumulated
  from zero, is at (b, nn) the sum over the 2048 columns mm of `slice (b, mm) · code`; the step adds it to the accumulator.
-/
import proofs.«430961_j40080634806820_3_alg».proof.Proof.KerStep
import proofs.«430961_j40080634806820_3_alg».proof.Proof.LibDotLastAxis
import proofs.«430961_j40080634806820_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

/-- The code cut out of word q for column offset p, as an extended real. -/
def codeOf (q : BitVec 32) (p : Fin 8) : EReal := (((Cert.Hand.nibble q (Cert.Hand.shiftOf p)).toInt : ℝ) : EReal)

/-- The eight code blocks the body lays side by side, in its order. -/
def pcs (x1 : Vec Ideal S2048x256 .i32) : Fin 8 → (S2048x256.Idx → Ideal .bf16)
  | ⟨0, _⟩ => k0_pay3 x1
  | ⟨1, _⟩ => k0_pay4 x1
  | ⟨2, _⟩ => k0_pay5 x1
  | ⟨3, _⟩ => k0_pay6 x1
  | ⟨4, _⟩ => k0_pay7 x1
  | ⟨5, _⟩ => k0_pay8 x1
  | ⟨6, _⟩ => k0_pay9 x1
  | ⟨7, _⟩ => sitofp .bf16 (andi (shrsi x1 (broadcast S2048x256 28#32)) (broadcast S2048x256 15#32))
  | ⟨_ + 8, h⟩ => absurd h (by omega)

/-- Block p holds, at every place, the code for column offset p of the word at that place. -/
theorem pcs_apply (x1 : Vec Ideal S2048x256 .i32) (p : Fin 8) (y : S2048x256.Idx) : pcs x1 p y = codeOf (x1 y) p := by
  match p with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem xslice_apply (i : grid0.Coords) (x0 : Vec Ideal S8x8192 .bf16) (b : Fin 8) (mm : Fin 2048) (o : ℕ) (ho : k0_off1 i = ![0, o]) (hlt : o + 2048 ≤ 8192) :
   xslice i x0 (ix2 b mm) = x0 (ix2 b (⟨o + mm.val, by have := mm.isLt; omega⟩ : Fin 8192)) := by
  unfold xslice
  show x0 _ = x0 _
  congr 1
  funext a; apply Fin.ext
  match a with
  | ⟨0, _⟩ => show (k0_off1 i) 0 + 1 * b.val = b.val; rw [ho]; show 0 + 1 * b.val = b.val; omega
  | ⟨1, _⟩ => show (k0_off1 i) 1 + 1 * mm.val = o + mm.val; rw [ho]; show o + 1 * mm.val = o + mm.val; omega

/-- The eight blocks side by side, read at (nn, mm): block mm / 256 at (nn, mm % 256). -/
theorem concat_apply (x1 : Vec Ideal S2048x256 .i32)
    (h : Shape.Concatenates [S2048x256, S2048x256, S2048x256, S2048x256, S2048x256, S2048x256, S2048x256, S2048x256] S2048x2048 1)
    (nn mm : Fin 2048) :
    concatenate S2048x2048 1 [⟨S2048x256, pcs x1 0⟩, ⟨S2048x256, pcs x1 1⟩, ⟨S2048x256, pcs x1 2⟩, ⟨S2048x256, pcs x1 3⟩,
        ⟨S2048x256, pcs x1 4⟩, ⟨S2048x256, pcs x1 5⟩, ⟨S2048x256, pcs x1 6⟩, ⟨S2048x256, pcs x1 7⟩] h (ix2 nn mm)
      = pcs x1 (⟨mm.val / 256, by have := mm.isLt; omega⟩ : Fin 8) (ix2 nn (⟨mm.val % 256, Nat.mod_lt _ (by decide)⟩ : Fin 256)) := by
  refine concatenate_ofFn_apply (t := S2048x2048) (s₁ := S2048x256) (1 : Fin 2) (N := 8) (pcs x1) h rfl 256 rfl (ix2 nn mm)
    (⟨mm.val / 256, by have := mm.isLt; omega⟩ : Fin 8) rfl (ix2 nn (⟨mm.val % 256, Nat.mod_lt _ (by decide)⟩ : Fin 256)) rfl ?_
  intro b hb
  match b with
  | ⟨0, _⟩ => rfl
  | ⟨1, _⟩ => exact absurd rfl hb

/-- One step at an entry: the accumulator there plus the sum over the block's 2048 columns, in the body's order, of the
    activation times the code. -/
theorem step_apply (i : grid0.Coords) (x0 : Vec Ideal S8x8192 .bf16) (x1 : Vec Ideal S2048x256 .i32) (acc : Vec Ideal S8x2048 .f32)
    (b : Fin 8) (nn : Fin 2048) :
    step i x0 x1 acc (ix2 b nn) = acc (ix2 b nn) + ∑ mm : Fin 2048, xslice i x0 (ix2 b mm)
      * codeOf (x1 (ix2 nn (⟨mm.val % 256, Nat.mod_lt _ (by decide)⟩ : Fin 256))) (⟨mm.val / 256, by have := mm.isLt; omega⟩ : Fin 8) := by
  unfold step k0_pay1
  simp only [shapeCast_self]
  rw [addf_apply]
  congr 1
  refine (LibDotLastAxis.matmul_zero_apply _ none _ _ b nn).trans ?_
  refine Finset.sum_congr rfl fun mm _ => ?_
  congr 1
  refine (concat_apply x1 _ nn mm).trans ?_
  exact pcs_apply x1 _ _

end Cert.KernelIdeal.Hand
end
-- ==== Proof.KerBlocks.lean ====
/-
  Where the blocks of a grid point lie in their arrays.

  Point number t works on row block t / 4 of the packed table (2048 rows) and on its column block t % 4 (256 words a
  row, 2048 columns of codes). The activations are staged whole at every point, and the body cuts from them the 2048
  columns from 2048 · (t % 4) on. The output block of the point is columns 2048 · (t / 4) … of the result, all eight rows.
-/
import proofs.«430961_j40080634806820_3_alg».proof.Proof.KerStep
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The block indices of the three windows at every point, decided over the grid. -/
theorem idx_facts : ∀ t : Fin cfg0.N, win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = 0 ∧ win0_2.index t (1 : Fin 2) = t.val / 4 :=
  (by decide +kernel : ∀ t : Fin grid0.N, _)

/-- Where the body cuts the activations at every point, decided over the grid. -/
theorem off_facts : ∀ t : Fin cfg0.N, k0_off1 (grid0.coords t) = ![0, 2048 * (t.val % 4)] :=
  (by decide +kernel : ∀ t : Fin grid0.N, k0_off1 (grid0.coords t) = ![0, 2048 * (t.val % 4)])

/-- The staged activations are the whole array at every point. -/
theorem xblk_apply (c : Dev nD) (t : Fin cfg0.N) (b : Fin 8) (r : Fin 8192) :
    (iblk m c 0 t : Vec F S8x8192 .bf16) (ix2 b r) = (V m c main_v3 : Vec F S8x8192 .bf16) (ix2 b r) := by
  obtain ⟨e0, e1, -⟩ := idx_facts t
  unfold iblk
  rw [View.read_apply]
  show V m c main_v3 _ = V m c main_v3 _
  congr 1
  funext a; apply Fin.ext
  match a with
  | ⟨0, _⟩ => show win0_0.index t (0 : Fin 2) * 8 + 1 * b.val = b.val; omega
  | ⟨1, _⟩ => show win0_0.index t (1 : Fin 2) * 8192 + 1 * r.val = r.val; omega

/-- The staged block of packed words: rows 2048 · (t / 4) …, words 256 · (t % 4) … of the table. -/
theorem qblk_apply (c : Dev nD) (t : Fin cfg0.N) (r : Fin 2048) (cc : Fin 256) :
    (iblk m c 1 t : Vec F S2048x256 .i32) (ix2 r cc)
      = (V m c main_arg1 : Vec F S8192x1024 .i32) (ix2 (⟨2048 * (t.val / 4) + r.val, by
          have := r.isLt; have := lt_of_lt_of_eq t.isLt (show cfg0.N = 16 from N_0); omega⟩ : Fin 8192)
        (⟨256 * (t.val % 4) + cc.val, by have := cc.isLt; omega⟩ : Fin 1024)) := by
  obtain ⟨-, -, e2, e3, -⟩ := idx_facts t
  unfold iblk
  rw [View.read_apply]
  show V m c main_arg1 _ = V m c main_arg1 _
  congr 1
  funext a; apply Fin.ext
  match a with
  | ⟨0, _⟩ => show win0_1.index t (0 : Fin 2) * 2048 + 1 * r.val = 2048 * (t.val / 4) + r.val; omega
  | ⟨1, _⟩ => show win0_1.index t (1 : Fin 2) * 256 + 1 * cc.val = 256 * (t.val % 4) + cc.val; omega

end Cert.KernelIdeal.Hand

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KerSum.lean ====
/-
  The accumulator at an entry, as a sum.

  Entry (b, nn) of the accumulator after point t holds, for the row n = 2048 · (t / 4) + nn of the table, the sum over
  the column blocks 0 … t % 4 and over the 2048 places of each of `activation · code`. After the last column block that is
  the sum over all 8192 places r of the permuted activations' entry (b, r) times the code that the body pairs with it:
  the code for column offset (r % 2048) / 256 of word 256 · (r / 2048) + (r % 2048) % 256 of row n.
-/
import proofs.«430961_j40080634806820_3_alg».proof.Proof.KerChain
import proofs.«430961_j40080634806820_3_alg».proof.Proof.KerStepIdeal
import proofs.«430961_j40080634806820_3_alg».proof.Proof.KerBlocks
import proofs.«430961_j40080634806820_3_alg».proof.Proof.LibTile

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ)

/-- The permuted activations as the grid finds them. -/
def xarr (c : Dev nD) : Vec Ideal S8x8192 .bf16 := V m c main_v3

/-- The packed table as the grid finds it. -/
def qarr (c : Dev nD) : Vec Ideal S8192x1024 .i32 := V m c main_arg1

/-- The product the body forms at place r of row n: the permuted activation times the code it is paired with. -/
def term (c : Dev nD) (b : Fin 8) (n : Fin 8192) (r : Fin 8192) : EReal :=
  xarr m c (ix2 b r)
    * codeOf (qarr m c (ix2 n (⟨256 * (r.val / 2048) + r.val % 2048 % 256, by have := r.isLt; omega⟩ : Fin 1024)))
      (⟨r.val % 2048 / 256, by have := r.isLt; omega⟩ : Fin 8)

/-- The same by column block and place inside it (zero past the four blocks). -/
def tileTerm (c : Dev nD) (b : Fin 8) (n : Fin 8192) (kt : ℕ) (mm : Fin 2048) : EReal :=
  if h : kt < 4 then term m c b n ⟨2048 * kt + mm.val, by have := mm.isLt; omega⟩ else 0

theorem zeroAcc_apply (j : S8x2048.Idx) : (zeroAcc : Vec Ideal S8x2048 .f32) j = 0 := by
  unfold zeroAcc k0_pay2
  rw [shapeCast_self]
  exact Ideal.ofBits_zero_f32

/-- One point's step at an entry, in the arrays' own coordinates. -/
theorem point_step (c : Dev nD) (t : Fin cfg0.N) (acc : Vec Ideal S8x2048 .f32) (b : Fin 8) (nn : Fin 2048) :
    step (grid0.coords t) (iblk m c 0 t) (iblk m c 1 t) acc (ix2 b nn)
      = acc (ix2 b nn) + ∑ mm : Fin 2048, tileTerm m c b (⟨2048 * (t.val / 4) + nn.val, by
          have := nn.isLt; have := lt_of_lt_of_eq t.isLt (show cfg0.N = 16 from N_0); omega⟩ : Fin 8192) (t.val % 4) mm := by
  refine (step_apply (grid0.coords t) (iblk m c 0 t) (iblk m c 1 t) acc b nn).trans ?_
  congr 1
  refine Finset.sum_congr rfl fun mm _ => ?_
  have hmm := mm.isLt
  have h4 : t.val % 4 < 4 := Nat.mod_lt _ (by decide)
  unfold tileTerm
  rw [dif_pos h4]
  unfold term
  refine congrArg₂ (· * ·) ?_ ?_
  · refine (xslice_apply (grid0.coords t) (iblk m c 0 t) b mm (2048 * (t.val % 4)) (off_facts t) (by omega)).trans ?_
    exact xblk_apply m c t b _
  · have e1 := qblk_apply m c t nn (⟨mm.val % 256, Nat.mod_lt _ (by decide)⟩ : Fin 256)
    have i1 : (⟨256 * (t.val % 4) + mm.val % 256, by omega⟩ : Fin 1024)
        = (⟨256 * ((2048 * (t.val % 4) + mm.val) / 2048) + (2048 * (t.val % 4) + mm.val) % 2048 % 256, by omega⟩ : Fin 1024) :=
      Fin.ext (by show 256 * (t.val % 4) + mm.val % 256 = 256 * ((2048 * (t.val % 4) + mm.val) / 2048) + (2048 * (t.val % 4) + mm.val) % 2048 % 256; omega)
    have i2 : (⟨mm.val / 256, by omega⟩ : Fin 8) = (⟨(2048 * (t.val % 4) + mm.val) % 2048 / 256, by omega⟩ : Fin 8) :=
      Fin.ext (by show mm.val / 256 = (2048 * (t.val % 4) + mm.val) % 2048 / 256; omega)
    rw [e1, i1, i2]
    rfl

/-- After point n the accumulator's entry (b, nn) is the sum over the column blocks met so far. -/
theorem acc_apply (c : Dev nD) (b : Fin 8) : ∀ (n : ℕ) (h : n < cfg0.N) (nn : Fin 2048),
    accAfter m c n h (ix2 b nn) = ∑ kt ∈ Finset.range (n % 4 + 1), ∑ mm : Fin 2048,
      tileTerm m c b (⟨2048 * (n / 4) + nn.val, by
        have := nn.isLt; have := lt_of_lt_of_eq h (show cfg0.N = 16 from N_0); omega⟩ : Fin 8192) kt mm
  | 0, h, nn => by
    rw [accAfter_first m c ⟨0, h⟩ rfl]
    refine (point_step m c ⟨0, h⟩ zeroAcc b nn).trans ?_
    rw [zeroAcc_apply, zero_add]
    exact (Finset.sum_range_one (fun kt => ∑ mm : Fin 2048, tileTerm m c b _ kt mm)).symm
  | n + 1, h, nn => by
    have hN : n + 1 < 16 := lt_of_lt_of_eq h (show cfg0.N = 16 from N_0)
    by_cases h0 : (n + 1) % 4 = 0
    · rw [accAfter_first m c ⟨n + 1, h⟩ h0]
      refine (point_step m c ⟨n + 1, h⟩ zeroAcc b nn).trans ?_
      rw [zeroAcc_apply, zero_add]
      show ∑ mm : Fin 2048, tileTerm m c b _ ((n + 1) % 4) mm = _
      rw [h0]
      exact (Finset.sum_range_one (fun kt => ∑ mm : Fin 2048, tileTerm m c b _ kt mm)).symm
    · rw [accAfter_next m c ⟨n + 1, h⟩ h0]
      refine (point_step m c ⟨n + 1, h⟩ _ b nn).trans ?_
      have ih := acc_apply c b n (Nat.lt_of_succ_lt h) nn
      have hq : (n + 1) / 4 = n / 4 := by omega
      have hr : (n + 1) % 4 = n % 4 + 1 := by omega
      have hn : (⟨2048 * (n / 4) + nn.val, by have := nn.isLt; omega⟩ : Fin 8192)
          = (⟨2048 * ((n + 1) / 4) + nn.val, by have := nn.isLt; omega⟩ : Fin 8192) := Fin.ext (by show 2048 * (n / 4) + nn.val = 2048 * ((n + 1) / 4) + nn.val; rw [hq])
      show accAfter m c n _ (ix2 b nn) + ∑ mm : Fin 2048, tileTerm m c b _ ((n + 1) % 4) mm = _
      rw [ih, hn, Finset.sum_range_succ _ ((n + 1) % 4), hr]

/-- After a last column block the entry is the sum over all 8192 places. -/
theorem acc_last (c : Dev nD) (b : Fin 8) (t : Fin cfg0.N) (h3 : t.val % 4 = 3) (nn : Fin 2048) :
    accAfter m c t.val t.isLt (ix2 b nn) = ∑ r : Fin 8192, term m c b (⟨2048 * (t.val / 4) + nn.val, by
        have := nn.isLt; have := lt_of_lt_of_eq t.isLt (show cfg0.N = 16 from N_0); omega⟩ : Fin 8192) r := by
  rw [acc_apply m c b t.val t.isLt nn, h3, Finset.sum_range fun kt => ∑ mm : Fin 2048, tileTerm m c b _ kt mm,
    ← Cert.Hand.LibTile.sum_tiles (m := 4) (n := 2048) (N := 8192) rfl (term m c b _)]
  refine Finset.sum_congr rfl fun kt _ => Finset.sum_congr rfl fun mm _ => ?_
  unfold tileTerm
  rw [dif_pos kt.isLt]

end Cert.KernelIdeal.Hand

end
-- ==== Proof.KerHostPre.lean ====
/-
  What the kernel's first window holds when the region is entered.

  Before the region the program reads its first argument a, an [8, 8192] array, as an [8, 4, 256, 8] array (same row-major
  order), exchanges the last two axes, reads the [8, 4, 8, 256] result as an [8, 8192] array again, and narrows the element
  type (which changes no value over the extended reals). Position r = 2048 t + 256 p + q of row b of the result, with
  t < 4, p < 8, q < 256, is entry (b, t, p, q) of the exchanged array, that is entry (b, t, q, p) of the first reading,
  that is column 2048 t + 8 q + p of row b of a: the column the kernel's order assigns to position r.
-/
import proofs.«430961_j40080634806820_3_alg».proof.Proof.Gen.KernelIdeal.Frame
import proofs.«430961_j40080634806820_3_alg».proof.Proof.Spec
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.ValueIdx Idealize.ShloMosaic.TcCoe Idealize.ShloMosaic.Tactic
open Cert.KernelIdeal Cert.KernelIdeal.Gen

/-- The four operations read at (b, r), over any [8, 8192] array a: the result is a at (b, colPerm r).
    With t = r / 2048, p = (r mod 2048) / 256, q = (r mod 2048) mod 256:
    the last reshape matches row-major positions ((4 b + t) 8 + p) 256 + q = 8192 b + r;
    the exchange of the last two axes sends (b, t, p, q) to (b, t, q, p);
    the first reshape matches ((4 b + t) 256 + q) 8 + p = 8192 b + (2048 t + 8 q + p). -/
theorem permuted_apply (a : FVec Ideal S8x8192 .f32)
    (h1 : S8x8192.ShapeCasts S8x4x256x8) (h2 : S8x4x256x8.Transposes [0, 1, 3, 2] S8x4x8x256)
    (h3 : S8x4x8x256.ShapeCasts S8x8192) (h4 : FTy.bits .bf16 < FTy.bits .f32) (b : Fin 8) (r : Fin 8192) :
    (truncf .bf16 (shapeCast S8x8192 (transpose S8x4x8x256 [0, 1, 3, 2] (shapeCast S8x4x256x8 a h1) h2) h3) h4 :
        FVec Ideal S8x8192 .bf16) (ix2 b r)
      = a (ix2 b (Cert.Hand.colPerm r)) := by
  have hr := r.isLt
  have hb := b.isLt
  -- narrowing the element type changes no value
  rw [truncf_apply]
  -- the last reshape: position (b, r) is entry (b, t, p, q)
  rw [shapeCast_apply _ h3 (ix2 b r)
    (ix4 b (⟨r.val / 2048, by omega⟩ : Fin 4) (⟨r.val % 2048 / 256, by omega⟩ : Fin 8) (⟨r.val % 2048 % 256, by omega⟩ : Fin 256)) (by
      rw [Shape.rowMajor_val_four, Shape.rowMajor_val_two]
      show ((b.val * 4 + r.val / 2048) * 8 + r.val % 2048 / 256) * 256 + r.val % 2048 % 256 = b.val * 8192 + r.val
      omega)]
  -- the exchange of the last two axes: entry (b, t, p, q) comes from (b, t, q, p)
  rw [transpose_apply _ _ h2 _
    (ix4 b (⟨r.val / 2048, by omega⟩ : Fin 4) (⟨r.val % 2048 % 256, by omega⟩ : Fin 256) (⟨r.val % 2048 / 256, by omega⟩ : Fin 8)) (by
      intro d; fin_cases d <;> rfl)]
  -- the first reshape: entry (b, t, q, p) is column 2048 t + 8 q + p of row b
  rw [shapeCast_apply _ h1 _ (ix2 b (Cert.Hand.colPerm r)) (by
      rw [Shape.rowMajor_val_four, Shape.rowMajor_val_two]
      show b.val * 8192 + (r.val / 2048 * 2048 + r.val % 2048 % 256 * 8 + r.val % 2048 / 256)
        = ((b.val * 4 + r.val / 2048) * 256 + r.val % 2048 % 256) * 8 + r.val % 2048 / 256
      omega)]

/-- The array the first window stages, as the region finds it, is the four operations applied to the first argument. -/
theorem xarr_term (m : (ℓ : Loc nD τ sig) → Buf (Elt Ideal) ℓ) (c : Dev nD) :
    (Gen.V m c main_v3 : FVec Ideal S8x8192 .bf16)
      = truncf (F := Ideal) .bf16 (shapeCast S8x8192 (transpose S8x4x8x256 [0, 1, 3, 2]
          (shapeCast S8x4x256x8 (m ((c : Thread nD τ).loc main_arg0) : FVec Ideal S8x8192 .f32)
            Facts₀.shapeCasts_S8x8192_S8x4x256x8)
          Facts₀.transposes_S8x4x256x8_S8x4x8x256_0_1_3_2) Facts₀.shapeCasts_S8x4x8x256_S8x8192)
          Facts₀.bitsLt_bf16_f32 := by
  show StableHlo.after hostOps0 (fun b => m (c, b)) (Proc.devRef .tc main_v3) = _
  after_results
  rfl

/-- Position r of row b of the staged array is column colPerm r of row b of the first argument. -/
theorem xarr_apply (m : (ℓ : Loc Cert.KernelIdeal.nD Cert.KernelIdeal.τ Cert.KernelIdeal.sig) → Buf (Elt Ideal) ℓ)
    (c : Dev Cert.KernelIdeal.nD) (b : Fin 8) (r : Fin 8192) :
    (Cert.KernelIdeal.Gen.V m c Cert.KernelIdeal.main_v3 : FVec Ideal Cert.KernelIdeal.S8x8192 .bf16) (ValueIdx.ix2 b r)
      = (m ((c : Thread Cert.KernelIdeal.nD Cert.KernelIdeal.τ).loc Cert.KernelIdeal.main_arg0) :
          FVec Ideal Cert.KernelIdeal.S8x8192 .f32) (ValueIdx.ix2 b (Cert.Hand.colPerm r)) :=
  (congrFun (xarr_term m c) (ix2 b r)).trans
    (permuted_apply _ Facts₀.shapeCasts_S8x8192_S8x4x256x8 Facts₀.transposes_S8x4x256x8_S8x4x8x256_0_1_3_2
      Facts₀.shapeCasts_S8x4x8x256_S8x8192 Facts₀.bitsLt_bf16_f32 b r)

end Cert.KernelIdeal.Hand

end
-- ==== Proof.KerFinal.lean ====
/-
  The pallas_call's result array after the grid.

  The output block of row block i (columns 2048 i … of the result, all eight rows) is written back once, after the last
  column block, with the accumulator: entry (b, n) of the result array is the sum over the 8192 places of the products
  the body forms for row n of the table. Every entry lies in exactly one such block, so the whole array is that sum.
  In the specification's words place r pairs the first argument's column `colPerm r` with the code of that same column.
-/
import proofs.«430961_j40080634806820_3_alg».proof.Proof.KerSum
import proofs.«430961_j40080634806820_3_alg».proof.Proof.KerHostPre
import proofs.«430961_j40080634806820_3_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

variable (m : (ℓ : Loc nD τ sig) → Buf (Elt Ideal) ℓ)

/-- The first argument as launched. -/
def xin (c : Dev nD) : FVec Ideal Cert.Hand.SX .f32 := m ((c : Thread nD τ).loc main_arg0)

/-- The packed table as launched. -/
def qin (c : Dev nD) : IVec Cert.Hand.SQ 32 := m ((c : Thread nD τ).loc main_arg1)

/-- Place r of row n, in the specification's words: the first argument's column `colPerm r` times that column's code. -/
theorem term_eq (c : Dev nD) (b : Fin 8) (n : Fin 8192) (r : Fin 8192) :
    term m c b n r = xin m c (ix2 b (Cert.Hand.colPerm r)) * Cert.Hand.codeAt (qin m c) n (Cert.Hand.colPerm r) := by
  have hr := r.isLt
  unfold term
  refine congrArg₂ (· * ·) (xarr_apply m c b r) ?_
  have q : qarr m c = qin m c := V_main_arg1 m c
  rw [q]
  unfold Cert.Hand.codeAt Cert.Hand.wordOf codeOf
  have i1 : (⟨256 * (r.val / 2048) + r.val % 2048 % 256, by omega⟩ : Fin 1024)
      = (⟨(Cert.Hand.colPerm r).val / 8, by have := (Cert.Hand.colPerm r).isLt; omega⟩ : Fin 1024) :=
    Fin.ext (by
      show 256 * (r.val / 2048) + r.val % 2048 % 256 = (r.val / 2048 * 2048 + r.val % 2048 % 256 * 8 + r.val % 2048 / 256) / 8
      omega)
  have i2 : (⟨r.val % 2048 / 256, by omega⟩ : Fin 8)
      = (⟨(Cert.Hand.colPerm r).val % 8, Nat.mod_lt _ (by decide)⟩ : Fin 8) :=
    Fin.ext (by
      show r.val % 2048 / 256 = (r.val / 2048 * 2048 + r.val % 2048 % 256 * 8 + r.val % 2048 / 256) % 8
      omega)
  rw [i1, i2]

/-- What the result array holds: at (b, n) the sum over the places of row n's products. -/
def matAt (c : Dev nD) : FVec Ideal S8x8192 .f32 := fun j => ∑ r : Fin 8192, term m c (j 0) (j 1) r

/-- What a last column block writes back is its block of that function. -/
theorem flushed_eq (c : Dev nD) (t : Fin cfg0.N) (hf : (cfg0.win 2).flush t = true) :
    (dats m 0 c).flushed 2 t = ((cfg0.win 2).blk t).view.read (Elt Ideal) (matAt m c) := by
  have h3 : t.val % 4 = 3 := (flush0_2 t).mp hf
  have hN : t.val < 16 := lt_of_lt_of_eq t.isLt (show cfg0.N = 16 from N_0)
  obtain ⟨-, -, -, -, e4, e5⟩ := idx_facts t
  show (cfg0.win 2).cut (grid0.coords t) ((dats m 0 c).after 2 t) = _
  rw [after0_2, out_eq m c t h3]
  funext y
  obtain ⟨b, nn, rfl⟩ : ∃ (b : Fin 8) (nn : Fin 2048), y = ix2 b nn := ⟨y 0, y 1, eq_ix2 y⟩
  have hnn := nn.isLt
  show accAfter m c t.val t.isLt (ix2 b nn) = matAt m c (((cfg0.win 2).blk t).view.emb (ix2 b nn))
  have hE : ((cfg0.win 2).blk t).view.emb (ix2 b nn)
      = ix2 b (⟨2048 * (t.val / 4) + nn.val, by omega⟩ : Fin 8192) := by
    funext a; apply Fin.ext
    match a with
    | ⟨0, _⟩ => show win0_2.index t (0 : Fin 2) * 8 + 1 * b.val = b.val; omega
    | ⟨1, _⟩ => show win0_2.index t (1 : Fin 2) * 2048 + 1 * nn.val = 2048 * (t.val / 4) + nn.val; omega
  rw [hE, acc_last m c b t h3 nn]
  rfl

/-- Every entry of the result lies in the block some last column block writes back. -/
theorem cover (i : S8x8192.Idx) : ∃ t : Fin cfg0.N, (cfg0.win 2).flush t = true ∧ i ∈ ((cfg0.win 2).blk t).view.set := by
  have h0 : (i 0 : Nat) < 8 := (i 0).isLt
  have h1 : (i 1 : Nat) < 8192 := (i 1).isLt
  let t : Fin cfg0.N := ⟨4 * ((i 1 : Nat) / 2048) + 3, by rw [show cfg0.N = 16 from N_0]; omega⟩
  have ht : t.val = 4 * ((i 1 : Nat) / 2048) + 3 := rfl
  obtain ⟨-, -, -, -, e4, e5⟩ := idx_facts t
  refine ⟨t, (flush0_2 t).mpr (by rw [ht]; omega), ?_⟩
  show i ∈ ((View.whole main_v4).slice (win0_2.rect t)).set
  rw [View.set_slice_whole, Rect.mem_set_unit]
  intro a
  match a with
  | ⟨0, _⟩ =>
    show win0_2.index t (0 : Fin 2) * 8 ≤ (i 0 : Nat) ∧ (i 0 : Nat) < win0_2.index t (0 : Fin 2) * 8 + 8
    omega
  | ⟨1, _⟩ =>
    show win0_2.index t (1 : Fin 2) * 2048 ≤ (i 1 : Nat) ∧ (i 1 : Nat) < win0_2.index t (1 : Fin 2) * 2048 + 2048
    omega

/-- The result array after the grid. -/
theorem final_eq (c : Dev nD) : (dats m 0 c).arrAt 2 cfg0.N = matAt m c :=
  (dats m 0 c).arrAt_eq_of_cover 2 (matAt m c) (flushed_eq m c) cover

/-- Entry (b, n) of the result array, in the specification's words. -/
theorem final_apply (c : Dev nD) (b : Fin 8) (n : Fin 8192) :
    matAt m c (ix2 b n)
      = ∑ r : Fin 8192, xin m c (ix2 b (Cert.Hand.colPerm r)) * Cert.Hand.codeAt (qin m c) n (Cert.Hand.colPerm r) :=
  Finset.sum_congr rfl fun r _ => term_eq m c b n r

end Cert.KernelIdeal.Hand

end
-- ==== Proof.KerHostTail.lean ====
/-
  What the kernel's program leaves in its result array after the region.

  After the region the program sums each row of its first argument a (from the initial value 0), multiplies the row sum by
  the offset literal, spreads the product along the row, and subtracts it from the region's result array y. So entry (b, n)
  of the final array is

    y (b, n) − offset · ∑ₖ a (b, k).

  Neither the region nor the lines after it write the first argument, so a is the array the program was launched with.
-/
import proofs.«430961_j40080634806820_3_alg».proof.Proof.Gen.KernelIdeal.Frame
import proofs.«430961_j40080634806820_3_alg».proof.Proof.Spec
import Idealize.ShloMosaic.Lib.Pipeline.Value
import Idealize.ShloMosaic.Lib.Pipeline.FrameSuffix
import Idealize.ShloMosaic.Lib.ValueIdx
import Idealize.ShloMosaic.Lib.IdealHost
import Idealize.ShloMosaic.Lib.StableHlo.Run
import Idealize.ShloMosaic.PureOps.Ideal.Laws

noncomputable section

open scoped BigOperators

namespace Cert.KernelIdeal.Hand

open Idealize.ShloMosaic Idealize.ShloMosaic.ValueIdx Idealize.ShloMosaic.TcCoe Idealize.ShloMosaic.Tactic
open Cert.KernelIdeal Cert.KernelIdeal.Gen

/-- The eight operations read at (b, n), over any two [8, 8192] arrays y and a: the difference at (b, n) is
    y (b, n) minus the spread product at (b, n); the spread product there is the [8, 1] product at (b, 0), which is the
    literal times the spread row sum at (b, 0), which is the row sum at b: 0 + ∑ₖ a (b, k). -/
theorem tail_pure (y a : FVec Ideal S8x8192 .f32)
    (hred : S8x8192.ReducesTo [1] S8) (hS : 0 < S_.numel)
    (hb1 : S8.BroadcastsInDim S8x1 (![0] : Fin 1 → Fin S8x1.rank))
    (hb2 : S_.BroadcastsInDim S8x1 (![] : Fin 0 → Fin S8x1.rank))
    (hb3 : S8x1.BroadcastsInDim S8x8192 (![0, 1] : Fin 2 → Fin S8x8192.rank))
    (b : Fin 8) (n : Fin 8192) :
    (subf y (broadcastInDim S8x8192 ![0, 1] hb3
        (mulf (broadcastInDim S8x1 ![] hb2 (constant (F := Ideal) S_ .f32 0x40F00000#32))
              (broadcastInDim S8x1 ![0] hb1
                (Host.reduceAdd a (constant (F := Ideal) S_ .f32 0x00000000#32) hred hS)))) :
        FVec Ideal S8x8192 .f32) (ix2 b n)
      = y (ix2 b n) - Cert.Hand.offset * ∑ k : Fin 8192, a (ix2 b k) := by
  rw [subf_apply]
  -- the [8, 1] product spread along the row: (b, n) reads (b, 0)
  rw [broadcastInDim_apply ![0, 1] hb3 _ (ix2 b n) (ix2 b (0 : Fin 1)) (by intro d; fin_cases d <;> rfl)]
  -- the product at (b, 0): the scalar literal, spread, times the row sums, spread
  rw [mulf_apply, broadcastInDim_scalar_apply, constant_apply]
  rw [broadcastInDim_apply ![0] hb1 _ (ix2 b (0 : Fin 1)) (ix1 b) (by intro d; fin_cases d; rfl)]
  -- the row sum at b, from the initial value 0
  rw [hostReduceAdd_apply, constant_apply, Ideal.ofBits_zero_f32,
    Ideal.hostReduceAdd_single hred (by decide : S8x8192.Reduces [1] S8), zero_add]
  -- the literal is the offset, and the index the sum inserts into row b at k is (b, k)
  refine congrArg (fun s => y (ix2 b n) - Cert.Hand.offset * s) ?_
  exact Finset.sum_congr rfl fun k _ => congrArg a (funext fun d => by fin_cases d <;> rfl)

/-- The eight operations after the region, run from any contents W that hold y as the region's result array and a as the
    first argument, leave in the final array the difference of y and the spread product built from a. -/
theorem tail_term (W : Valuation τ sig (Elt Ideal)) (y a : FVec Ideal S8x8192 .f32)
    (hy : W (Proc.devRef .tc main_v4) = y) (ha : W (Proc.devRef .tc main_arg0) = a) :
    (StableHlo.after hostOps1 W (Proc.devRef .tc main_v10) : FVec Ideal S8x8192 .f32)
      = subf (F := Ideal) y
          (broadcastInDim S8x8192 ![0, 1] Facts₀.bcast_S8x1_S8x8192_0_1
            (mulf (F := Ideal) (broadcastInDim S8x1 ![] Facts₀.bcast_S_S8x1 (constant (F := Ideal) S_ .f32 0x40F00000#32))
              (broadcastInDim S8x1 ![0] Facts₀.bcast_S8_S8x1_0
                (Host.reduceAdd (F := Ideal) a
                  (constant (F := Ideal) S_ .f32 0x00000000#32) Facts₀.reducesTo_S8x8192_S8_d1 Facts₀.h_S_)))) := by
  subst hy ha
  after_results

/-- Entry (b, n) of the final array, for any y the region's result array equals and any a the launched first argument
    equals: y (b, n) less the offset times row b's sum of a. -/
theorem tail_apply_of (m : (ℓ : Loc nD τ sig) → Buf (Elt Ideal) ℓ) (c : Dev nD) (y a : FVec Ideal S8x8192 .f32)
    (hy : (dats m 0 c).arrAt 2 cfg0.N = y) (ha : m ((c : Thread nD τ).loc main_arg0) = a) (b : Fin 8) (n : Fin 8192) :
    (Pipeline.afterTail₀ cfgs (dats m) 0 (V0 m) [hostOps1] c main_v10 : FVec Ideal S8x8192 .f32) (ix2 b n)
      = y (ix2 b n) - Cert.Hand.offset * ∑ k : Fin 8192, a (ix2 b k) := by
  -- the region's result array is the third window's array as the region leaves it
  have h4 : Pipeline.withArrays (cfgs 0).spec c (V0 m c) (fun w => (dats m 0 c).arrAt w (cfgs 0).N)
      (Proc.devRef .tc main_v4) = y :=
    (Pipeline.withArrays_arr spec0 launch0.win.arr_inj c _ _ 2).trans hy
  -- the first argument is no window's result array and no line before the region writes it
  have h0 : Pipeline.withArrays (cfgs 0).spec c (V0 m c) (fun w => (dats m 0 c).arrAt w (cfgs 0).N)
      (Proc.devRef .tc main_arg0) = a :=
    ((Pipeline.withArrays_of_ne _ c (V0 m c) _ main_arg0
      (by exact (by decide : ∀ w, Pipeline.arrRef spec0 w ≠ main_arg0))).trans (V_main_arg0 m c)).trans ha
  -- the lines after the region run from those contents
  unfold Pipeline.afterTail₀
  show (StableHlo.after (hostOps1 (F := Ideal))
      (Pipeline.withArrays (cfgs 0).spec c (V0 m c) (fun w => (dats m 0 c).arrAt w (cfgs 0).N))
      (Proc.devRef .tc main_v10) : FVec Ideal S8x8192 .f32) (ix2 b n) = _
  exact (congrFun (tail_term _ y a h4 h0) (ix2 b n)).trans
    (tail_pure y a Facts₀.reducesTo_S8x8192_S8_d1 Facts₀.h_S_ Facts₀.bcast_S8_S8x1_0 Facts₀.bcast_S_S8x1
      Facts₀.bcast_S8x1_S8x8192_0_1 b n)

/-- The region's result array as the region leaves it, as an [8, 8192] array of extended reals. -/
abbrev tailRes (m : (ℓ : Loc nD τ sig) → Buf (Elt Ideal) ℓ) (c : Dev nD) : FVec Ideal S8x8192 .f32 :=
  (dats m 0 c).arrAt 2 cfg0.N

/-- The first argument as launched, as an [8, 8192] array of extended reals. -/
abbrev tailArg (m : (ℓ : Loc nD τ sig) → Buf (Elt Ideal) ℓ) (c : Dev nD) : FVec Ideal S8x8192 .f32 :=
  m ((c : Thread nD τ).loc main_arg0)

/-- Entry (b, n) of the final array is the region's result at (b, n) less the offset times row b's sum of the first
    argument as launched. -/
theorem tail_apply (m : (ℓ : Loc nD τ sig) → Buf (Elt Ideal) ℓ) (c : Dev nD) (b : Fin 8) (n : Fin 8192) :
    (Pipeline.afterTail₀ cfgs (dats m) 0 (V0 m) [hostOps1] c main_v10 : FVec Ideal S8x8192 .f32) (ix2 b n)
      = tailRes m c (ix2 b n) - Cert.Hand.offset * ∑ k : Fin 8192, tailArg m c (ix2 b k) :=
  tail_apply_of m c _ _ rfl rfl b n

end Cert.KernelIdeal.Hand

end
-- ==== Proof.KerRun.lean ====
/-
  The kernel's run, read.

  After the grid the program subtracts from every entry (b, n) of the pallas_call's result 7.5 times the sum of row b of
  the first argument. With the result array at the sums of the body's products, the program's result is the
  specification's `kerVal` of the two arguments as launched, and the arguments end unchanged.
-/
import proofs.«430961_j40080634806820_3_alg».proof.Proof.KerFinal
import proofs.«430961_j40080634806820_3_alg».proof.Proof.KerHostTail

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The program's result buffer after the lines that follow the grid. -/
theorem result_eq (c : Dev nD) :
    Pipeline.afterTail₀ cfgs (dats m) 0 (V0 m) [hostOps1] c main_v10 = Cert.Hand.kerVal (xin m c) (qin m c) := by
  funext j
  obtain ⟨b, n, rfl⟩ : ∃ (b : Fin 8) (n : Fin 8192), j = ix2 b n := ⟨j 0, j 1, eq_ix2 j⟩
  refine (tail_apply_of m c (matAt m c) (xin m c) (final_eq m c) rfl b n).trans ?_
  rw [final_apply m c b n]
  rfl

/-- Every weakly fair execution of the kernel's program ends with its result at `kerVal` of the arguments and the
    arguments unchanged. -/
theorem run : θ_run defs (onTc (τ := τ) (main (F := Ideal))) ⟨m, fun _ => 0, ρ⟩ (fun r => ∀ c : Dev nD,
      r.2.mem ((c.tc : Thread nD τ).loc main_v10) = Cert.Hand.kerVal (xin m c) (qin m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«430961_j40080634806820_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefRun.lean ====
/-
  The reference program as a list of its 29 host operations, and its run.

  The program is a straight line: every operation writes one buffer of its own, after every buffer it reads. Its run from
  any memory with zero counters therefore terminates with every buffer at the fold of the operations over the launch
  contents, and the two argument buffers, which no operation writes, as launched. Ranking each buffer by its index in the
  buffer table, operation number p writes the buffer of rank 2 + p and reads only buffers of smaller rank: the line is in
  static single assignment order, so each result buffer can be read after the whole line as its operation's function of
  the operand buffers after the whole line.
-/
import proofs.«430961_j40080634806820_3_alg».proof.Proof.Gen.ReferenceIdeal
import proofs.«430961_j40080634806820_3_alg».proof.Proof.LibHostRank
import Idealize.ShloMosaic.Lib.StableHlo.Run
import Idealize.ShloMosaic.PureOps.Ideal

noncomputable section

namespace Cert.Hand.Ref

open Cert.ReferenceIdeal Cert.ReferenceIdeal.Gen Idealize.ShloMosaic Idealize.ShloMosaic.TcCoe Idealize.SL.Sem Idealize.ShloMosaic.StableHlo

variable {F : FTy → Type} [FloatOps F]

/-- The program's 29 operations, in order. -/
abbrev ops : List (HloOp τ sig (Elt F)) :=
  [
    nullary main_c (fun i => lit0 (S8.rowMajor i)),
    nullary main_v0 (iotaInDim S8 32 0),
    nullary main_c_0 (constantI S_ 32 4#32),
    unary main_c_0 main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S8192x1024x1 ![0, 1] bcast_S8192x1024_S8192x1024x1_0_1 : (⟨S8192x1024, .i32⟩ : BufTy).Contents (Elt F) → (⟨S8192x1024x1, .i32⟩ : BufTy).Contents (Elt F)),
    unary main_v2 main_v4 (broadcastInDim S1x1x8 ![2] bcast_S8_S1x1x8_2 : (⟨S8, .i32⟩ : BufTy).Contents (Elt F) → (⟨S1x1x8, .i32⟩ : BufTy).Contents (Elt F)),
    unary main_v3 main_v5 (broadcastInDim S8192x1024x8 ![0, 1, 2] bcast_S8192x1024x1_S8192x1024x8_0_1_2 : (⟨S8192x1024x1, .i32⟩ : BufTy).Contents (Elt F) → (⟨S8192x1024x8, .i32⟩ : BufTy).Contents (Elt F)),
    unary main_v4 main_v6 (broadcastInDim S8192x1024x8 ![0, 1, 2] bcast_S1x1x8_S8192x1024x8_0_1_2 : (⟨S1x1x8, .i32⟩ : BufTy).Contents (Elt F) → (⟨S8192x1024x8, .i32⟩ : BufTy).Contents (Elt F)),
    binary main_v5 main_v6 main_v7 (Host.shrsi : (⟨S8192x1024x8, .i32⟩ : BufTy).Contents (Elt F) → (⟨S8192x1024x8, .i32⟩ : BufTy).Contents (Elt F) → (⟨S8192x1024x8, .i32⟩ : BufTy).Contents (Elt F)),
    nullary main_c_1 (constantI S_ 32 15#32),
    unary main_c_1 main_v8 (broadcastInDim S8192x1024x8 ![] bcast_S_S8192x1024x8 : (⟨S_, .i32⟩ : BufTy).Contents (Elt F) → (⟨S8192x1024x8, .i32⟩ : BufTy).Contents (Elt F)),
    binary main_v7 main_v8 main_v9 (andi : (⟨S8192x1024x8, .i32⟩ : BufTy).Contents (Elt F) → (⟨S8192x1024x8, .i32⟩ : BufTy).Contents (Elt F) → (⟨S8192x1024x8, .i32⟩ : BufTy).Contents (Elt F)),
    nullary main_c_2 (constantI S_ 32 0#32),
    unary main_c_2 main_v10 (broadcastInDim S8 ![] bcast_S_S8 : (⟨S_, .i32⟩ : BufTy).Contents (Elt F) → (⟨S8, .i32⟩ : BufTy).Contents (Elt F)),
    binary main_c main_v10 main_v11 (cmpi .slt : (⟨S8, .i32⟩ : BufTy).Contents (Elt F) → (⟨S8, .i32⟩ : BufTy).Contents (Elt F) → (⟨S8, .i1⟩ : BufTy).Contents (Elt F)),
    nullary main_c_3 (constantI S_ 32 8#32),
    unary main_c_3 main_v12 (broadcastInDim S8 ![] bcast_S_S8 : (⟨S_, .i32⟩ : BufTy).Contents (Elt F) → (⟨S8, .i32⟩ : BufTy).Contents (Elt F)),
    binary main_c main_v12 main_v13 (addi : (⟨S8, .i32⟩ : BufTy).Contents (Elt F) → (⟨S8, .i32⟩ : BufTy).Contents (Elt F) → (⟨S8, .i32⟩ : BufTy).Contents (Elt F)),
    ternary main_v11 main_v13 main_c main_v14 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v14 main_v15 (broadcastInDim S8x1 ![0] bcast_S8_S8x1_0 : (⟨S8, .i32⟩ : BufTy).Contents (Elt F) → (⟨S8x1, .i32⟩ : BufTy).Contents (Elt F)),
    binary main_v9 main_v15 main_v16 ((fun x i => Host.gather gather_S8192x1024x8_S8x1_S8192x1024x8_01_2_n_n_2_1_819210241 x i) : (⟨S8192x1024x8, .i32⟩ : BufTy).Contents (Elt F) → (⟨S8x1, .i32⟩ : BufTy).Contents (Elt F) → (⟨S8192x1024x8, .i32⟩ : BufTy).Contents (Elt F)),
    reshape main_v16 main_v17 rfl shapeCasts_S8192x1024x8_S8192x8192,
    unary main_v17 main_v18 (sitofp .f32 : (⟨S8192x8192, .i32⟩ : BufTy).Contents (Elt F) → (⟨S8192x8192, .f32⟩ : BufTy).Contents (Elt F)),
    nullary main_cst (constant S_ .f32 0x40F00000#32),
    unary main_cst main_v19 (broadcastInDim S8192x8192 ![] bcast_S_S8192x8192 : (⟨S_, .f32⟩ : BufTy).Contents (Elt F) → (⟨S8192x8192, .f32⟩ : BufTy).Contents (Elt F)),
    binary main_v18 main_v19 main_v20 (subf : (⟨S8192x8192, .f32⟩ : BufTy).Contents (Elt F) → (⟨S8192x8192, .f32⟩ : BufTy).Contents (Elt F) → (⟨S8192x8192, .f32⟩ : BufTy).Contents (Elt F)),
    unary main_v20 main_v21 ((transpose S8192x8192 [1, 0] · transposes_S8192x8192_S8192x8192_1_0) : (⟨S8192x8192, .f32⟩ : BufTy).Contents (Elt F) → (⟨S8192x8192, .f32⟩ : BufTy).Contents (Elt F)),
    binary main_arg0 main_v21 main_v22 ((fun l r => Host.dotGeneral dot_S8x8192_S8192x8192_S8x8192_1_0_0_1_n_n none l r) : (⟨S8x8192, .f32⟩ : BufTy).Contents (Elt F) → (⟨S8192x8192, .f32⟩ : BufTy).Contents (Elt F) → (⟨S8x8192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., nullary_bufs_sub .., unary_bufs_sub .., binary_bufs_sub .., unary_bufs_sub .., binary_bufs_sub ..⟩

/-- A buffer's rank: its index in its table. -/
def rk (b : DevRef τ sig) : Nat := b.idx.val

/-- Operation number p writes the buffer of rank 2 + p and touches no buffer of larger rank. -/
theorem ops_ranked : Cert.HostRead.Ranked rk 2 (ops : List (HloOp τ sig (Elt Ideal))) := by decide

/-- No operation writes a buffer an earlier one reads or writes. -/
theorem ops_fresh : Cert.HostRead.Fresh (ops : List (HloOp τ sig (Elt Ideal))) := Cert.HostRead.Ranked.fresh rk 2 ops ops_ranked

/-- The buffers' contents after the whole line, from launch contents `V`. -/
def fin (V : Valuation τ sig (Elt Ideal)) : Valuation τ sig (Elt Ideal) := after ops V

theorem fin_def (V : Valuation τ sig (Elt Ideal)) : fin V = after ops V := rfl

/-- The first argument is written by no operation. -/
theorem fin_arg0 (V : Valuation τ sig (Elt Ideal)) : fin V (Proc.devRef .tc main_arg0) = V (Proc.devRef .tc main_arg0) :=
  Cert.HostRead.Ranked.after_of_lt rk 2 ops ops_ranked V _ (by decide)

/-- The second argument is written by no operation. -/
theorem fin_arg1 (V : Valuation τ sig (Elt Ideal)) : fin V (Proc.devRef .tc main_arg1) = V (Proc.devRef .tc main_arg1) :=
  Cert.HostRead.Ranked.after_of_lt rk 2 ops ops_ranked V _ (by decide)

/-- From any memory with zero counters every weakly fair execution of the program terminates, each buffer at the fold of
    the operations over the launch contents. -/
theorem run_fold (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = fin (launchContents m c) (Proc.devRef .tc b) :=
  run_seq scopedRefs_eq scopedSems_eq defs main (fun _ => ops) main_eq (fun _ => ops_sub) m ρ

end Cert.Hand.Ref

end
-- ==== Proof.RefValue.lean ====
/-
  The reference's chain of array operations, read at an index.

  The program unpacks the table of words in three moves. It shifts every word right by 0, 4, …, 28 bits and masks with 15:
  entry (n, w, q) of that array is nibble q of word w of row n. It then reorders the last axis by the table 0, 4, 1, 5, 2, 6,
  3, 7, so entry (n, w, p) is nibble number nib p, which is code number p of the word; the reordering is a gather whose start
  indices are the table's entries, all of them inside 0 … 7, so the clamp the gather applies to a start index leaves them as
  they are, and the comparison with zero and the addition of 8 that come before it (the normalisation of a negative index)
  leave every entry as it is. Last it lays the [8192, 1024, 8] array out as [8192, 8192]: position (n, k) holds entry
  (n, k / 8, k mod 8), the code of row n and column k. Converted to a number and lowered by 7.5 that is the matrix the first
  argument is multiplied with, transposed: entry (b, n) of the result is the sum over the columns k of x (b, k) times the
  lowered code of (n, k).

  The arithmetic shift right on 32-bit words is the same word whichever unit performs it, and four times nib p is the shift
  the specification gives for code number p.
-/
import proofs.«430961_j40080634806820_3_alg».proof.Proof.Spec
import proofs.«430961_j40080634806820_3_alg».proof.Proof.Gen.ReferenceIdeal
import Idealize.ShloMosaic.Lib.Pipeline.Value
import Idealize.ShloMosaic.Lib.KernelVsHost
import Idealize.ShloMosaic.Lib.StackMember

noncomputable section

open scoped BigOperators

namespace Cert.Hand.Ref

open Cert.ReferenceIdeal Cert.ReferenceIdeal.Gen Idealize.ShloMosaic Idealize.ShloMosaic.ValueIdx

/-- The reordering gather read at (n, w, p): the operand at (n, w, q) with q the p-th start index, read signed and clamped
    into 0 … 7. The first two axes are copied whole (the slice covers them), the last is collapsed onto the start index. -/
theorem gather_at {α : Type} (x : S8192x1024x8.Idx → α) (idx : IVec S8x1 32) (n : Fin 8192) (w : Fin 1024) (p : Fin 8) :
    Host.gather gather_S8192x1024x8_S8x1_S8192x1024x8_01_2_n_n_2_1_819210241 x idx (ix3 n w p)
      = x (ix3 n w ⟨min (idx (ix2 p (0 : Fin 1))).toInt.toNat 7, by omega⟩) := by
  unfold Host.gather
  congr 1
  funext a
  refine Fin.ext ?_
  show gather_S8192x1024x8_S8x1_S8192x1024x8_01_2_n_n_2_1_819210241.start (ix3 n w p) idx a
      + gather_S8192x1024x8_S8x1_S8192x1024x8_01_2_n_n_2_1_819210241.batchCoord (ix3 n w p) a
      + gather_S8192x1024x8_S8x1_S8192x1024x8_01_2_n_n_2_1_819210241.offCoord (ix3 n w p) a = _
  rw [GatherDims.batchCoord_eq_zero _ _ _ List.not_mem_nil]
  match a with
  | ⟨0, _⟩ =>
    have hs : gather_S8192x1024x8_S8x1_S8192x1024x8_01_2_n_n_2_1_819210241.start (ix3 n w p) idx ⟨0, by decide⟩ = 0 := by
      unfold GatherDims.start; exact dif_neg (by decide)
    rw [hs]; simp only [Nat.zero_add, Nat.add_zero]
    rfl
  | ⟨1, _⟩ =>
    have hs : gather_S8192x1024x8_S8x1_S8192x1024x8_01_2_n_n_2_1_819210241.start (ix3 n w p) idx ⟨1, by decide⟩ = 0 := by
      unfold GatherDims.start; exact dif_neg (by decide)
    rw [hs]; simp only [Nat.zero_add, Nat.add_zero]
    rfl
  | ⟨2, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨2, by decide⟩ : Fin S8192x1024x8.rank) ∈ gather_S8192x1024x8_S8x1_S8192x1024x8_01_2_n_n_2_1_819210241.startIndexMap from List.mem_singleton.mpr rfl)]
    have hsi : gather_S8192x1024x8_S8x1_S8192x1024x8_01_2_n_n_2_1_819210241.siIdx (ix3 n w p)
        ⟨List.idxOf (⟨2, by decide⟩ : Fin S8192x1024x8.rank) gather_S8192x1024x8_S8x1_S8192x1024x8_01_2_n_n_2_1_819210241.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- A broadcast of a scalar reads the scalar everywhere. -/
theorem bcast0_apply {α : Type} (t : Shape) (h : S_.BroadcastsInDim t (![] : Fin 0 → Fin t.rank)) (x : S_.Idx → α) (j : t.Idx) :
    broadcastInDim t ![] h x j = x ix0 :=
  broadcastInDim_apply _ h x j ix0 (fun a => a.elim0)

/-- The nibble number of code p inside its word. -/
def nib : Fin 8 → Fin 8 := ![0, 4, 1, 5, 2, 6, 3, 7]

/-- The program's table of nibble numbers. -/
def c0 : IVec S8 32 := fun i => lit0 (S8.rowMajor i)

/-- The table after the program's normalisation of negative entries (an entry below zero would have 8 added). -/
def idxTab : IVec S8 32 :=
  select (cmpi .slt c0 (broadcastInDim S8 ![] bcast_S_S8 (constantI S_ 32 0#32)))
    (addi c0 (broadcastInDim S8 ![] bcast_S_S8 (constantI S_ 32 8#32))) c0

/-- No entry of the table is negative, so the normalisation changes nothing. -/
theorem idxTab_apply (p : Fin 8) : idxTab (ix1 p) = lit0 p := by
  have hr : S8.rowMajor (ix1 p) = p := Fin.ext (Shape.rowMajor_val_one _)
  unfold idxTab
  rw [select_apply]
  unfold cmpi addi c0
  rw [hr, bcast0_apply, bcast0_apply]
  show Scalar.select (IntOp.cmpi .slt (lit0 p) 0#32) (IntOp.addi (lit0 p) 8#32) (lit0 p) = lit0 p
  clear hr
  revert p; decide

/-- The shift amounts by nibble number: four times the number. -/
def shifts : IVec S8 32 := muli (iotaInDim S8 32 0) (broadcastInDim S8 ![] bcast_S_S8 (constantI S_ 32 4#32))

theorem shifts_apply (q : Fin 8) : shifts (ix1 q) = IntOp.muli (BitVec.ofNat 32 q.val) 4#32 := by
  unfold shifts muli
  rw [bcast0_apply]
  rfl

/-- Every nibble of every word: entry (n, w, q) is nibble q of word w of row n. -/
def codes (Q : IVec S8192x1024 32) : IVec S8192x1024x8 32 :=
  andi (Host.shrsi
      (broadcastInDim S8192x1024x8 ![0, 1, 2] bcast_S8192x1024x1_S8192x1024x8_0_1_2
        (broadcastInDim S8192x1024x1 ![0, 1] bcast_S8192x1024_S8192x1024x1_0_1 Q))
      (broadcastInDim S8192x1024x8 ![0, 1, 2] bcast_S1x1x8_S8192x1024x8_0_1_2
        (broadcastInDim S1x1x8 ![2] bcast_S8_S1x1x8_2 shifts)))
    (broadcastInDim S8192x1024x8 ![] bcast_S_S8192x1024x8 (constantI S_ 32 15#32))

theorem codes_apply (Q : IVec S8192x1024 32) (n : Fin 8192) (w : Fin 1024) (q : Fin 8) :
    codes Q (ix3 n w q) = IntOp.andi (IntOp.shrsi .host (Q (ix2 n w)) (shifts (ix1 q))) 15#32 := by
  unfold codes andi Host.shrsi
  rw [bcast0_apply,
    broadcastInDim_apply _ bcast_S8192x1024x1_S8192x1024x8_0_1_2 _ (ix3 n w q) (ix3 n w (0 : Fin 1))
      (fun a => match a with | ⟨0, _⟩ => rfl | ⟨1, _⟩ => rfl | ⟨2, _⟩ => rfl),
    broadcastInDim_apply _ bcast_S8192x1024_S8192x1024x1_0_1 Q (ix3 n w (0 : Fin 1)) (ix2 n w)
      (fun a => match a with | ⟨0, _⟩ => rfl | ⟨1, _⟩ => rfl),
    broadcastInDim_apply _ bcast_S1x1x8_S8192x1024x8_0_1_2 _ (ix3 n w q) (ix3 (0 : Fin 1) (0 : Fin 1) q)
      (fun a => match a with | ⟨0, _⟩ => rfl | ⟨1, _⟩ => rfl | ⟨2, _⟩ => rfl),
    broadcastInDim_apply _ bcast_S8_S1x1x8_2 shifts (ix3 (0 : Fin 1) (0 : Fin 1) q) (ix1 q)
      (fun a => match a with | ⟨0, _⟩ => rfl)]
  rfl

/-- The codes in column order: entry (n, w, p) is code number p of word w of row n. -/
def picked (Q : IVec S8192x1024 32) : IVec S8192x1024x8 32 :=
  Host.gather gather_S8192x1024x8_S8x1_S8192x1024x8_01_2_n_n_2_1_819210241 (codes Q) (broadcastInDim S8x1 ![0] bcast_S8_S8x1_0 idxTab)

theorem picked_apply (Q : IVec S8192x1024 32) (n : Fin 8192) (w : Fin 1024) (p : Fin 8) :
    picked Q (ix3 n w p) = codes Q (ix3 n w (nib p)) := by
  unfold picked
  rw [gather_at]
  congr 2
  refine Fin.ext ?_
  show min ((broadcastInDim S8x1 ![0] bcast_S8_S8x1_0 idxTab) (ix2 p (0 : Fin 1))).toInt.toNat 7 = (nib p).val
  rw [broadcastInDim_apply _ bcast_S8_S8x1_0 idxTab (ix2 p (0 : Fin 1)) (ix1 p) (fun a => match a with | ⟨0, _⟩ => rfl),
    idxTab_apply]
  revert p; decide

/-- Four times code p's nibble number is the shift the specification names. -/
theorem shift_nib : ∀ p : Fin 8, IntOp.muli (BitVec.ofNat 32 (nib p).val) 4#32 = shiftOf p := by decide

/-- The matrix of lowered codes: entry (n, k) is the code of row n, column k, less 7.5. -/
def weights (Q : IVec S8192x1024 32) : FVec Ideal S8192x8192 .f32 :=
  subf (sitofp .f32 (shapeCast S8192x8192 (picked Q) shapeCasts_S8192x1024x8_S8192x8192))
    (broadcastInDim S8192x8192 ![] bcast_S_S8192x8192 (constant S_ .f32 0x40F00000#32))

theorem weights_apply (Q : IVec S8192x1024 32) (n k : Fin 8192) : weights Q (ix2 n k) = codeAt Q n k - offset := by
  unfold weights
  rw [subf_apply, sitofp_apply, bcast0_apply, constant_apply,
    shapeCast_apply (picked Q) shapeCasts_S8192x1024x8_S8192x8192 (ix2 n k)
      (ix3 n (⟨k.val / 8, by have := k.isLt; omega⟩ : Fin 1024) (⟨k.val % 8, Nat.mod_lt _ (by decide)⟩ : Fin 8))
      (by
        rw [Shape.rowMajor_val_three, Shape.rowMajor_val_two]
        show (n.val * 1024 + k.val / 8) * 8 + k.val % 8 = n.val * 8192 + k.val
        omega),
    picked_apply, codes_apply, shifts_apply, shift_nib, shrsi_unit .host .vector]
  rfl

/-- The program's result as one term of its two arguments. -/
def refTerm (x : FVec Ideal S8x8192 .f32) (Q : IVec S8192x1024 32) : FVec Ideal S8x8192 .f32 :=
  Host.dotGeneral dot_S8x8192_S8192x8192_S8x8192_1_0_0_1_n_n none x
    (transpose S8192x8192 [1, 0] (weights Q) transposes_S8192x8192_S8192x8192_1_0)

/-- Entry (b, n) of the result is the contraction over the columns k of the first argument's (b, k) with the lowered code of
    row n, column k. -/
theorem refTerm_eq (x : FVec Ideal SX .f32) (Q : IVec SQ 32) : refTerm x Q = refVal x Q := by
  funext i
  obtain ⟨b, n, rfl⟩ : ∃ (b : Fin 8) (n : Fin 8192), i = ix2 b n := ⟨i 0, i 1, eq_ix2 i⟩
  unfold refTerm
  refine (StackMember.dotGeneral_plain_apply none x _ b n).trans ?_
  show _ = refAt x Q b n
  unfold refAt
  refine Finset.sum_congr rfl fun k _ => ?_
  rw [transpose_apply [1, 0] (weights Q) transposes_S8192x8192_S8192x8192_1_0 (ix2 k n) (ix2 n k)
      (fun a => match a with | ⟨0, _⟩ => rfl | ⟨1, _⟩ => rfl),
    weights_apply]

end Cert.Hand.Ref
end
-- ==== Proof.RefClaim.lean ====
/-
  The reference's run, with its result read as the specification's array.

  After the whole line each result buffer holds its operation's function of its operand buffers after the whole line. Read
  back from the result buffer, operation by operation, to the two argument buffers, which keep their launch contents, the
  result is the chain of array operations applied to the launch contents of the arguments; read at an index, that chain is
  the contraction the specification states.
-/
import proofs.«430961_j40080634806820_3_alg».proof.Proof.RefRun
import proofs.«430961_j40080634806820_3_alg».proof.Proof.RefValue

noncomputable section

namespace Cert.Hand.Ref

open Cert.ReferenceIdeal Cert.ReferenceIdeal.Gen Idealize.ShloMosaic Idealize.ShloMosaic.TcCoe Idealize.SL.Sem Idealize.ShloMosaic.StableHlo

/-! The operations by their number in the line. -/

section Ops
variable {F : FTy → Type} [FloatOps F]

theorem op0 : (ops : List (HloOp τ sig (Elt F)))[0]'(by show 0 < 29; decide) = nullary main_c (fun i => lit0 (S8.rowMajor i)) := rfl
theorem op1 : (ops : List (HloOp τ sig (Elt F)))[1]'(by show 1 < 29; decide) = nullary main_v0 (iotaInDim S8 32 0) := rfl
theorem op2 : (ops : List (HloOp τ sig (Elt F)))[2]'(by show 2 < 29; decide) = nullary main_c_0 (constantI S_ 32 4#32) := rfl
theorem op3 : (ops : List (HloOp τ sig (Elt F)))[3]'(by show 3 < 29; decide) = unary main_c_0 main_v1 (broadcastInDim S8 ![] bcast_S_S8 : (⟨S_, .i32⟩ : BufTy).Contents (Elt F) → (⟨S8, .i32⟩ : BufTy).Contents (Elt F)) := rfl
theorem op4 : (ops : List (HloOp τ sig (Elt F)))[4]'(by show 4 < 29; decide) = binary main_v0 main_v1 main_v2 (muli : (⟨S8, .i32⟩ : BufTy).Contents (Elt F) → (⟨S8, .i32⟩ : BufTy).Contents (Elt F) → (⟨S8, .i32⟩ : BufTy).Contents (Elt F)) := rfl
theorem op5 : (ops : List (HloOp τ sig (Elt F)))[5]'(by show 5 < 29; decide) = unary main_arg1 main_v3 (broadcastInDim S8192x1024x1 ![0, 1] bcast_S8192x1024_S8192x1024x1_0_1 : (⟨S8192x1024, .i32⟩ : BufTy).Contents (Elt F) → (⟨S8192x1024x1, .i32⟩ : BufTy).Contents (Elt F)) := rfl
theorem op6 : (ops : List (HloOp τ sig (Elt F)))[6]'(by show 6 < 29; decide) = unary main_v2 main_v4 (broadcastInDim S1x1x8 ![2] bcast_S8_S1x1x8_2 : (⟨S8, .i32⟩ : BufTy).Contents (Elt F) → (⟨S1x1x8, .i32⟩ : BufTy).Contents (Elt F)) := rfl
theorem op7 : (ops : List (HloOp τ sig (Elt F)))[7]'(by show 7 < 29; decide) = unary main_v3 main_v5 (broadcastInDim S8192x1024x8 ![0, 1, 2] bcast_S8192x1024x1_S8192x1024x8_0_1_2 : (⟨S8192x1024x1, .i32⟩ : BufTy).Contents (Elt F) → (⟨S8192x1024x8, .i32⟩ : BufTy).Contents (Elt F)) := rfl
theorem op8 : (ops : List (HloOp τ sig (Elt F)))[8]'(by show 8 < 29; decide) = unary main_v4 main_v6 (broadcastInDim S8192x1024x8 ![0, 1, 2] bcast_S1x1x8_S8192x1024x8_0_1_2 : (⟨S1x1x8, .i32⟩ : BufTy).Contents (Elt F) → (⟨S8192x1024x8, .i32⟩ : BufTy).Contents (Elt F)) := rfl
theorem op9 : (ops : List (HloOp τ sig (Elt F)))[9]'(by show 9 < 29; decide) = binary main_v5 main_v6 main_v7 (Host.shrsi : (⟨S8192x1024x8, .i32⟩ : BufTy).Contents (Elt F) → (⟨S8192x1024x8, .i32⟩ : BufTy).Contents (Elt F) → (⟨S8192x1024x8, .i32⟩ : BufTy).Contents (Elt F)) := rfl
theorem op10 : (ops : List (HloOp τ sig (Elt F)))[10]'(by show 10 < 29; decide) = nullary main_c_1 (constantI S_ 32 15#32) := rfl
theorem op11 : (ops : List (HloOp τ sig (Elt F)))[11]'(by show 11 < 29; decide) = unary main_c_1 main_v8 (broadcastInDim S8192x1024x8 ![] bcast_S_S8192x1024x8 : (⟨S_, .i32⟩ : BufTy).Contents (Elt F) → (⟨S8192x1024x8, .i32⟩ : BufTy).Contents (Elt F)) := rfl
theorem op12 : (ops : List (HloOp τ sig (Elt F)))[12]'(by show 12 < 29; decide) = binary main_v7 main_v8 main_v9 (andi : (⟨S8192x1024x8, .i32⟩ : BufTy).Contents (Elt F) → (⟨S8192x1024x8, .i32⟩ : BufTy).Contents (Elt F) → (⟨S8192x1024x8, .i32⟩ : BufTy).Contents (Elt F)) := rfl
theorem op13 : (ops : List (HloOp τ sig (Elt F)))[13]'(by show 13 < 29; decide) = nullary main_c_2 (constantI S_ 32 0#32) := rfl
theorem op14 : (ops : List (HloOp τ sig (Elt F)))[14]'(by show 14 < 29; decide) = unary main_c_2 main_v10 (broadcastInDim S8 ![] bcast_S_S8 : (⟨S_, .i32⟩ : BufTy).Contents (Elt F) → (⟨S8, .i32⟩ : BufTy).Contents (Elt F)) := rfl
theorem op15 : (ops : List (HloOp τ sig (Elt F)))[15]'(by show 15 < 29; decide) = binary main_c main_v10 main_v11 (cmpi .slt : (⟨S8, .i32⟩ : BufTy).Contents (Elt F) → (⟨S8, .i32⟩ : BufTy).Contents (Elt F) → (⟨S8, .i1⟩ : BufTy).Contents (Elt F)) := rfl
theorem op16 : (ops : List (HloOp τ sig (Elt F)))[16]'(by show 16 < 29; decide) = nullary main_c_3 (constantI S_ 32 8#32) := rfl
theorem op17 : (ops : List (HloOp τ sig (Elt F)))[17]'(by show 17 < 29; decide) = unary main_c_3 main_v12 (broadcastInDim S8 ![] bcast_S_S8 : (⟨S_, .i32⟩ : BufTy).Contents (Elt F) → (⟨S8, .i32⟩ : BufTy).Contents (Elt F)) := rfl
theorem op18 : (ops : List (HloOp τ sig (Elt F)))[18]'(by show 18 < 29; decide) = binary main_c main_v12 main_v13 (addi : (⟨S8, .i32⟩ : BufTy).Contents (Elt F) → (⟨S8, .i32⟩ : BufTy).Contents (Elt F) → (⟨S8, .i32⟩ : BufTy).Contents (Elt F)) := rfl
theorem op19 : (ops : List (HloOp τ sig (Elt F)))[19]'(by show 19 < 29; decide) = ternary main_v11 main_v13 main_c main_v14 (select : (⟨S8, .i1⟩ : BufTy).Contents (Elt F) → (⟨S8, .i32⟩ : BufTy).Contents (Elt F) → (⟨S8, .i32⟩ : BufTy).Contents (Elt F) → (⟨S8, .i32⟩ : BufTy).Contents (Elt F)) := rfl
theorem op20 : (ops : List (HloOp τ sig (Elt F)))[20]'(by show 20 < 29; decide) = unary main_v14 main_v15 (broadcastInDim S8x1 ![0] bcast_S8_S8x1_0 : (⟨S8, .i32⟩ : BufTy).Contents (Elt F) → (⟨S8x1, .i32⟩ : BufTy).Contents (Elt F)) := rfl
theorem op21 : (ops : List (HloOp τ sig (Elt F)))[21]'(by show 21 < 29; decide) = binary main_v9 main_v15 main_v16 ((fun x i => Host.gather gather_S8192x1024x8_S8x1_S8192x1024x8_01_2_n_n_2_1_819210241 x i) : (⟨S8192x1024x8, .i32⟩ : BufTy).Contents (Elt F) → (⟨S8x1, .i32⟩ : BufTy).Contents (Elt F) → (⟨S8192x1024x8, .i32⟩ : BufTy).Contents (Elt F)) := rfl
theorem op22 : (ops : List (HloOp τ sig (Elt F)))[22]'(by show 22 < 29; decide) = reshape main_v16 main_v17 rfl shapeCasts_S8192x1024x8_S8192x8192 := rfl
theorem op23 : (ops : List (HloOp τ sig (Elt F)))[23]'(by show 23 < 29; decide) = unary main_v17 main_v18 (sitofp .f32 : (⟨S8192x8192, .i32⟩ : BufTy).Contents (Elt F) → (⟨S8192x8192, .f32⟩ : BufTy).Contents (Elt F)) := rfl
theorem op24 : (ops : List (HloOp τ sig (Elt F)))[24]'(by show 24 < 29; decide) = nullary main_cst (constant S_ .f32 0x40F00000#32) := rfl
theorem op25 : (ops : List (HloOp τ sig (Elt F)))[25]'(by show 25 < 29; decide) = unary main_cst main_v19 (broadcastInDim S8192x8192 ![] bcast_S_S8192x8192 : (⟨S_, .f32⟩ : BufTy).Contents (Elt F) → (⟨S8192x8192, .f32⟩ : BufTy).Contents (Elt F)) := rfl
theorem op26 : (ops : List (HloOp τ sig (Elt F)))[26]'(by show 26 < 29; decide) = binary main_v18 main_v19 main_v20 (subf : (⟨S8192x8192, .f32⟩ : BufTy).Contents (Elt F) → (⟨S8192x8192, .f32⟩ : BufTy).Contents (Elt F) → (⟨S8192x8192, .f32⟩ : BufTy).Contents (Elt F)) := rfl
theorem op27 : (ops : List (HloOp τ sig (Elt F)))[27]'(by show 27 < 29; decide) = unary main_v20 main_v21 ((transpose S8192x8192 [1, 0] · transposes_S8192x8192_S8192x8192_1_0) : (⟨S8192x8192, .f32⟩ : BufTy).Contents (Elt F) → (⟨S8192x8192, .f32⟩ : BufTy).Contents (Elt F)) := rfl
theorem op28 : (ops : List (HloOp τ sig (Elt F)))[28]'(by show 28 < 29; decide) = binary main_arg0 main_v21 main_v22 ((fun l r => Host.dotGeneral dot_S8x8192_S8192x8192_S8x8192_1_0_0_1_n_n none l r) : (⟨S8x8192, .f32⟩ : BufTy).Contents (Elt F) → (⟨S8192x8192, .f32⟩ : BufTy).Contents (Elt F) → (⟨S8x8192, .f32⟩ : BufTy).Contents (Elt F)) := rfl

end Ops

/-- After the whole line the result buffer holds the chain of array operations applied to the launch contents of the two
    arguments. -/
theorem fin_v22 (V : Valuation τ sig (Elt Ideal)) :
    fin V (Proc.devRef .tc main_v22) = refTerm (V (Proc.devRef .tc main_arg0)) (V (Proc.devRef .tc main_arg1)) := by
  have a0 := fin_arg0 V
  have a1 := fin_arg1 V
  rw [fin_def] at a0 a1 ⊢
  unfold refTerm weights picked codes shifts idxTab c0
  rw [Cert.HostRead.read_binary ops_fresh 28 (hop := op28),
    Cert.HostRead.read_unary ops_fresh 27 (hop := op27),
    Cert.HostRead.read_binary ops_fresh 26 (hop := op26),
    Cert.HostRead.read_unary ops_fresh 25 (hop := op25),
    Cert.HostRead.read_nullary ops_fresh 24 (hop := op24),
    Cert.HostRead.read_unary ops_fresh 23 (hop := op23),
    Cert.HostRead.read_reshape ops_fresh 22 (hop := op22),
    Cert.HostRead.read_binary ops_fresh 21 (hop := op21),
    Cert.HostRead.read_unary ops_fresh 20 (hop := op20),
    Cert.HostRead.read_ternary ops_fresh 19 (hop := op19),
    Cert.HostRead.read_binary ops_fresh 18 (hop := op18),
    Cert.HostRead.read_unary ops_fresh 17 (hop := op17),
    Cert.HostRead.read_nullary ops_fresh 16 (hop := op16),
    Cert.HostRead.read_binary ops_fresh 15 (hop := op15),
    Cert.HostRead.read_unary ops_fresh 14 (hop := op14),
    Cert.HostRead.read_nullary ops_fresh 13 (hop := op13),
    Cert.HostRead.read_binary ops_fresh 12 (hop := op12),
    Cert.HostRead.read_unary ops_fresh 11 (hop := op11),
    Cert.HostRead.read_nullary ops_fresh 10 (hop := op10),
    Cert.HostRead.read_binary ops_fresh 9 (hop := op9),
    Cert.HostRead.read_unary ops_fresh 8 (hop := op8),
    Cert.HostRead.read_unary ops_fresh 7 (hop := op7),
    Cert.HostRead.read_unary ops_fresh 6 (hop := op6),
    Cert.HostRead.read_unary ops_fresh 5 (hop := op5),
    Cert.HostRead.read_binary ops_fresh 4 (hop := op4),
    Cert.HostRead.read_unary ops_fresh 3 (hop := op3),
    Cert.HostRead.read_nullary ops_fresh 2 (hop := op2),
    Cert.HostRead.read_nullary ops_fresh 1 (hop := op1),
    Cert.HostRead.read_nullary ops_fresh 0 (hop := op0),
    a0, a1]
  rfl

/-- From any memory with zero counters every weakly fair execution of the reference terminates, the result buffer at the
    specification's array of the launch contents of the two arguments, and the arguments as launched. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v22)
            = Cert.Hand.refVal (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run defs _ _).mono (fun _ h c =>
      ⟨(h c main_v22).trans ((fin_v22 _).trans (refTerm_eq _ _)),
        (h c main_arg0).trans (fin_arg0 _),
        (h c main_arg1).trans (fin_arg1 _)⟩)
    (run_fold m' ρ')

end Cert.Hand.Ref

end
-- ==== Proof.Algebra.lean ====
/-
  The algebra behind the equivalence: once every entry of the first argument is a real number, both contractions are
  finite sums of reals, and

    ∑ₖ xₖ (wₖ − c) = ∑ₖ xₖ wₖ − c ∑ₖ xₖ,

  while the kernel's order of the columns is a permutation of the columns, so summing in that order changes nothing.
-/
import proofs.«430961_j40080634806820_3_alg».proof.Proof.Spec
import Mathlib.Data.EReal.Operations
import Mathlib.Algebra.BigOperators.Group.Finset.Basic
import Mathlib.Algebra.BigOperators.Ring.Finset
import Mathlib.Data.Fintype.EquivFin
import Mathlib.Tactic.NormNum

noncomputable section

open scoped BigOperators

namespace Cert.Hand

open Idealize.ShloMosaic Idealize.ShloMosaic.ValueIdx

/-- The float literal the codes are lowered by denotes the real 7.5: sign 0, exponent 129, fraction 7340032, so
    (2²³ + 7340032) · 2^(129 − 127 − 23) = 15728640 / 2097152 = 7.5. -/
theorem offset_eq : offset = ((7.5 : ℝ) : EReal) := by
  unfold offset
  simp [Ideal.ofBits, Ideal.ieee, -EReal.coe_mul]
  norm_num

/-- The inclusion of the reals into the extended reals carries finite sums to finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's column order repeats no column: r is recovered from its block r / 2048, from (r mod 2048) mod 256 and
    from (r mod 2048) / 256, and these are the block, the quotient by 8 and the remainder mod 8 of the image. -/
theorem colPerm_injective : Function.Injective colPerm := by
  intro a b h
  have h' := congrArg Fin.val h
  simp only [colPerm] at h'
  have := a.isLt
  have := b.isLt
  ext
  omega

/-- An injection of a finite set into itself is a bijection: the kernel's column order is a permutation. -/
theorem colPerm_bijective : Function.Bijective colPerm :=
  colPerm_injective.bijective_of_finite

/-- Entry by entry the two contractions agree when the first argument is real. -/
theorem kerAt_eq_refAt (x : FVec Ideal SX .f32) (Q : IVec SQ 32) (hx : ∀ i, ∃ r : ℝ, x i = (r : EReal))
    (b : Fin 8) (n : Fin 8192) : kerAt x Q b n = refAt x Q b n := by
  choose xr hxr using hx
  -- every code is a real (an integer) by definition
  have hc : ∀ k, ∃ c : ℝ, codeAt Q n k = (c : EReal) := fun k => ⟨_, rfl⟩
  choose cr hcr using hc
  unfold kerAt refAt
  -- the kernel's order is a permutation of the columns
  rw [colPerm_bijective.sum_comp (fun k => x (ix2 b k) * codeAt Q n k)]
  -- now everything is real arithmetic
  simp only [hxr, hcr, offset_eq, ← EReal.coe_mul, ← EReal.coe_sub, ← coe_finset_sum]
  rw [EReal.coe_eq_coe_iff]
  simp only [mul_sub, Finset.sum_sub_distrib, Finset.mul_sum]
  congr 1
  exact Finset.sum_congr rfl fun k _ => mul_comm _ _

/-- Hence the two result arrays agree. -/
theorem kerVal_eq_refVal (x : FVec Ideal SX .f32) (Q : IVec SQ 32) (hx : ∀ i, ∃ r : ℝ, x i = (r : EReal)) :
    kerVal x Q = refVal x Q := by
  funext i
  exact kerAt_eq_refAt x Q hx (i 0) (i 1)

end Cert.Hand

end
-- ==== Proof.Finite.lean ====
/-
  From the stated precondition to "every entry of the first argument is a real number".

  The precondition takes the absolute value |x| = max x (−x) of every entry, compares it strictly with +∞, and folds all
  the comparisons by "and"; it holds when the fold is 1. A fold by "and" that ends in 1 met only 1s, so |x i| < +∞ for
  every index i. An extended real whose absolute value lies strictly below +∞ is neither +∞ nor −∞ (the absolute value of
  either is +∞), hence a real.
-/
import proofs.«430961_j40080634806820_3_alg».proof.Pre_finite_inputs
import proofs.«430961_j40080634806820_3_alg».proof.Proof.Gen.Pre_finite_inputs
import proofs.«430961_j40080634806820_3_alg».proof.Proof.Spec
import Idealize.ShloMosaic.Lib.ReduceAll
import Idealize.ShloMosaic.Lib.ValueIdx
import Idealize.ShloMosaic.PureOps.Ideal

noncomputable section

namespace Cert.Hand

open Idealize.ShloMosaic Idealize.ShloMosaic.ValueIdx

/-- The float literal the absolute values are compared with denotes +∞: exponent all ones, fraction zero, sign 0. -/
theorem inf_eq : Ideal.ofBits .f32 0x7F800000#32 = (⊤ : EReal) := by
  simp [Ideal.ofBits, Ideal.ieee]

/-- An extended real whose absolute value max a (−a) is strictly below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the first argument is a real. -/
theorem real_of_pre (x : FVec Ideal Cert.Pre_finite_inputs.S8x8192 .f32) (Q : IVec Cert.Pre_finite_inputs.S8192x1024 32)
    (h : Cert.Pre_finite_inputs.fn (F := Ideal) x Q = fun _ => 1#1) : ∀ i, ∃ r : ℝ, x i = (r : EReal) := by
  intro i
  -- the result has a single index
  haveI : Subsingleton Cert.Pre_finite_inputs.S_.Idx := ⟨fun a b => funext fun d => d.elim0⟩
  have h0 := congrFun h ValueIdx.ix0
  dsimp only [Cert.Pre_finite_inputs.fn] at h0
  -- the fold by "and" is 1, so the comparison at i is 1
  have hi := Host.reduce_andi_all _ _ _ _ _ h0 i
  have h1 : Ideal.cmp .olt (max (x i) (-(x i))) (Ideal.ofBits .f32 0x7F800000#32) = 1#1 := hi
  rw [inf_eq] at h1
  -- the comparison is the bit of the strict inequality
  have hlt : max (x i) (-(x i)) < (⊤ : EReal) := by
    by_contra hn
    simp [Ideal.cmp, hn] at h1
  exact real_of_abs_lt_top _ hlt

/-- The same over the specification's names for the two shapes, which are the same shapes. -/
theorem real_of_pre_spec (x : FVec Ideal SX .f32) (Q : IVec SQ 32)
    (h : Cert.Pre_finite_inputs.fn (F := Ideal) x Q = fun _ => 1#1) : ∀ i, ∃ r : ℝ, x i = (r : EReal) :=
  real_of_pre x Q h

end Cert.Hand

end
-- ==== Proof.lean ====
/-
  The certificate: a matrix product with a table of packed 4-bit codes.

  Both programs compute, for the [8, 8192] first argument x and the [8192, 1024] table Q of words each packing eight
  4-bit codes, the [8, 8192] array whose entry (b, n) is the sum over the 8192 columns k of x (b, k) · (code (n, k) − 7.5),
  the code of column k being a nibble of word k / 8 of row n (module Spec).

  The reference unpacks the whole table, lowers every code by 7.5 and contracts. The kernel contracts the raw codes
  block by block — 2048 rows of the table by 2048 columns at a grid point, the columns inside a block taken in the order
  the unpacking produces them, the first argument permuted to match before the grid — accumulating over the four column
  blocks of a row block, and afterwards subtracts 7.5 times the row sums of x. Over the extended reals the two agree
  when every entry of x is a real number, which is what the precondition says: then x (w − c) = x w − x c entry by
  entry, finite sums of reals may be regrouped, and the kernel's column order is a rearrangement of the columns.
  The kernel's idealization rewrote no operation, so that claim is trivial; the two kernel programs' frames are the
  generated ones, and the reference's frame is its run with the result dropped.
-/
import proofs.«430961_j40080634806820_3_alg».proof.Defs
import proofs.«430961_j40080634806820_3_alg».proof.Proof.Gen.Kernel
import proofs.«430961_j40080634806820_3_alg».proof.Proof.Gen.Kernel.Skeleton
import proofs.«430961_j40080634806820_3_alg».proof.Proof.Gen.Kernel.Launch
import proofs.«430961_j40080634806820_3_alg».proof.Proof.Gen.Kernel.Points
import proofs.«430961_j40080634806820_3_alg».proof.Proof.Gen.Kernel.Frame
import proofs.«430961_j40080634806820_3_alg».proof.Proof.Gen.KernelIdeal
import proofs.«430961_j40080634806820_3_alg».proof.Proof.Gen.KernelIdeal.Skeleton
import proofs.«430961_j40080634806820_3_alg».proof.Proof.Gen.KernelIdeal.Launch
import proofs.«430961_j40080634806820_3_alg».proof.Proof.Gen.KernelIdeal.Points
import proofs.«430961_j40080634806820_3_alg».proof.Proof.Gen.KernelIdeal.Frame
import proofs.«430961_j40080634806820_3_alg».proof.Proof.Gen.ReferenceIdeal
import proofs.«430961_j40080634806820_3_alg».proof.Proof.Gen.Pre_finite_inputs
import proofs.«430961_j40080634806820_3_alg».proof.Proof.KerRun
import proofs.«430961_j40080634806820_3_alg».proof.Proof.RefClaim
import proofs.«430961_j40080634806820_3_alg».proof.Proof.Algebra
import proofs.«430961_j40080634806820_3_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.Hand.Ref.run m ρ)

/-- From memories that agree on the arguments both programs end with the reference's array of the arguments: the
    kernel's own array equals it because the first argument's entries are reals. -/
theorem algebraic : Cert.algebraic_KernelIdeal_ReferenceIdeal := by
  intro m ρ m' ρ' hpre hagree
  refine ⟨fun c => Cert.Hand.refVal (Cert.KernelIdeal.Hand.xin m c) (Cert.KernelIdeal.Hand.qin m c), ?_, ?_⟩
  · refine (θ_run Cert.KernelIdeal.defs _ _).mono (fun _ h c => ⟨(h c).1.trans ?_, (h c).2⟩)
      (Cert.KernelIdeal.Hand.run m ρ)
    exact Cert.Hand.kerVal_eq_refVal _ _ (Cert.Hand.real_of_pre _ _ (hpre c))
  · refine (θ_run Cert.ReferenceIdeal.defs _ _).mono (fun _ h c => ⟨(h c).1.trans ?_, (h c).2⟩)
      (Cert.Hand.Ref.run m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
